-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x1 : Shape := ⟨2, ![100000, 1]⟩
abbrev S2x1600000 : Shape := ⟨2, ![2, 1600000]⟩
abbrev S1x64 : Shape := ⟨2, ![1, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S_ : Shape := ⟨0, ![]⟩

class Facts : Prop where
  bcast_S_S100000x1 : S_.BroadcastsInDim S100000x1 (![] : Fin 0 → Fin S100000x1.rank)
  reducesTo_S100000x1_S_d0_1 : S100000x1.ReducesTo [0, 1] S_
  h_S_ : 0 < S_.numel
  bcast_S_S1x64 : S_.BroadcastsInDim S1x64 (![] : Fin 0 → Fin S1x64.rank)
  reducesTo_S1x64_S_d0_1 : S1x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S64x1 .f32) (main_arg9 : FVec F S1 .f32) (main_v33 : IVec S_ 1) : IVec S_ 1 :=
  let main_v34 : FVec F S64x1 .f32 := Host.absf main_arg8
  let main_cst_12 : FVec F S_ .f32 := constant S_ .f32 0x7F800000#32
  let main_v35 : FVec F S64x1 .f32 := broadcastInDim S64x1 ![] bcast_S_S64x1 main_cst_12
  let main_v36 : IVec S64x1 1 := cmpf .olt main_v34 main_v35
  let main_c_13 : IVec S_ 1 := constantI S_ 1 1#1
  let main_v37 : IVec S_ 1 := (fun x v => Host.reduce IntOp.andi x v reducesTo_S64x1_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg5 : FVec F S64 .f32) (main_arg6 : FVec F S64x64 .f32) (main_arg7 : FVec F S64 .f32) (main_arg8 : FVec F S64x1 .f32) (main_arg9 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_v33

def fn {F : FTy → Type} [FloatOps F] (main_arg0 : FVec F S100000x1 .f32) (main_arg1 : IVec S2x1600000 32) (main_arg2 : FVec F S1x64 .f32) (main_arg3 : FVec F S64 .f32) (main_arg4 : FVec F S64x64 .f32) (main_arg5 : FVec F S64 .f32) (main_arg6 : FVec F S64x64 .f32) (main_arg7 : FVec F S64 .f32) (main_arg8 : FVec F S64x1 .f32) (main_arg9 : FVec F S1 .f32) : IVec S_ 1 :=
  let main_v0 : FVec F S100000x1 .f32 := Host.absf main_arg0
  let main_cst : FVec F S_ .f32 := constant S_ .f32 0x7F800000#32
  let main_v1 : FVec F S100000x1 .f32 := broadcastInDim S100000x1 ![] bcast_S_S100000x1 main_cst
  let main_v2 : IVec S100000x1 1 := cmpf .olt main_v0 main_v1
  let main_c : IVec S_ 1 := constantI S_ 1 1#1
  let main_v3 : IVec S_ 1 := (fun x v => Host.reduce IntOp.andi x v reducesTo_S100000x1_S_d0_1 h_S_) main_v2 main_c
  let main_v4 : FVec F S1x64 .f32 := Host.absf main_arg2
  let main_cst_0 : FVec F S_ .f32 := constant S_ .f32 0x7F800000#32
  let main_v5 : FVec F S1x64 .f32 := broadcastInDim S1x64 ![] bcast_S_S1x64 main_cst_0
  let main_v6 : IVec S1x64 1 := cmpf .olt main_v4 main_v5
  let main_c_1 : IVec S_ 1 := constantI S_ 1 1#1
  let main_v7 : IVec S_ 1 := (fun x v => Host.reduce IntOp.andi x v reducesTo_S1x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_arg9 main_v13 main_v16
-- ==== Kernel.lean ====
abbrev S100000x1 : Shape := ⟨2, ![100000, 1]⟩
abbrev S2x1600000 : Shape := ⟨2, ![2, 1600000]⟩
abbrev S1x64 : Shape := ⟨2, ![1, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S10000x1 : Shape := ⟨2, ![10000, 1]⟩
abbrev S10000x64 : Shape := ⟨2, ![10000, 64]⟩
abbrev S1700000x64 : Shape := ⟨2, ![1700000, 64]⟩
abbrev S1x1 : Shape := ⟨2, ![1, 1]⟩

abbrev nBuf : Space → Nat
  | .hbm => 86
  | .vmem => 16
  | .smem => 0
  | _ => 0

abbrev bufTy : (tb : Table) → Fin (tcTables nBuf tb) → BufTy
  | .hbm, ⟨0, _⟩ => ⟨S100000x1, .f32⟩
  | .hbm, ⟨1, _⟩ => ⟨S2x1600000, .i32⟩
  | .hbm, ⟨2, _⟩ => ⟨S1x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x1, .f32⟩
  | .hbm, ⟨9, _⟩ => ⟨S1, .f32⟩
  | .hbm, ⟨10, _⟩ => ⟨S100000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S1x1600000, .i32⟩
  | .hbm, ⟨15, _⟩ => ⟨S1600000, .i32⟩
  | .hbm, ⟨16, _⟩ => ⟨S1700000, .i32⟩
  | .hbm, ⟨17, _⟩ => ⟨S_, .f32⟩
  | .hbm, ⟨18, _⟩ => ⟨S1700000, .f32⟩
  | .hbm, ⟨19, _⟩ => ⟨S_, .f32⟩
  | .hbm, ⟨20, _⟩ => ⟨S100000, .f32⟩
  | .hbm, ⟨21, _⟩ => ⟨S1700000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000, .f32⟩
  | .hbm, ⟨40, _⟩ => ⟨S_, .i32⟩
  | .hbm, ⟨41, _⟩ => ⟨S1700000, .i32⟩
  | .hbm, ⟨42, _⟩ => ⟨S1700000, .i1⟩
  | .hbm, ⟨43, _⟩ => ⟨S_, .i32⟩
  | .hbm, ⟨44, _⟩ => ⟨S1700000, .i32⟩
  | .hbm, ⟨45, _⟩ => ⟨S1700000, .i32⟩
  | .hbm, ⟨46, _⟩ => ⟨S1700000, .i32⟩
  | .hbm, ⟨47, _⟩ => ⟨S1700000x1, .i32⟩
  | .hbm, ⟨48, _⟩ => ⟨S1700000, .f32⟩
  | .hbm, ⟨49, _⟩ => ⟨S1700000, .f32⟩
  | .hbm, ⟨50, _⟩ => ⟨S1700000x1, .f32⟩
  | .hbm, ⟨51, _⟩ => ⟨S_, .i32⟩
  | .hbm, ⟨52, _⟩ => ⟨S1700000, .i32⟩
  | .hbm, ⟨53, _⟩ => ⟨S1700000, .i1⟩
  | .hbm, ⟨54, _⟩ => ⟨S_, .i32⟩
  | .hbm, ⟨55, _⟩ => ⟨S1700000, .i32⟩
  | .hbm, ⟨56, _⟩ => ⟨S1700000, .i32⟩
  | .hbm, ⟨57, _⟩ => ⟨S1700000, .i32⟩
  | .hbm, ⟨58, _⟩ => ⟨S1700000x1, .i32⟩
  | .hbm, ⟨59, _⟩ => ⟨S1700000x1, .f32⟩
  | .hbm, ⟨60, _⟩ => ⟨S1700000x1, .f32⟩
  | .hbm, ⟨61, _⟩ => ⟨S_, .f32⟩
  | .hbm, ⟨62, _⟩ => ⟨S100000x1, .f32⟩
  | .hbm, ⟨63, _⟩ => ⟨S1700000x1, .i32⟩
  | .hbm, ⟨64, _⟩ => ⟨S100000x1, .f32⟩
  | .hbm, ⟨65, _⟩ => ⟨S1x64, .f32⟩
  | .hbm, ⟨66, _⟩ => ⟨S100000x64, .f32⟩
  | .hbm, ⟨67, _⟩ => ⟨S_, .i32⟩
  | .hbm, ⟨68, _⟩ => ⟨S1700000, .i32⟩
  | .hbm, ⟨69, _⟩ => ⟨S1700000, .i1⟩
  | .hbm, ⟨70, _⟩ => ⟨S_, .i32⟩
  | .hbm, ⟨71, _⟩ => ⟨S1700000, .i32⟩
  | .hbm, ⟨72, _⟩ => ⟨S1700000, .i32⟩
  | .hbm, ⟨73, _⟩ => ⟨S1700000, .i32⟩
  | .hbm, ⟨74, _⟩ => ⟨S1700000x1, .i32⟩
  | .hbm, ⟨75, _⟩ => ⟨S1700000x64, .f32⟩
  | .hbm, ⟨76, _⟩ => ⟨S1700000x64, .f32⟩
  | .hbm, ⟨77, _⟩ => ⟨S1700000x64, .f32⟩
  | .hbm, ⟨78, _⟩ => ⟨S_, .f32⟩
  | .hbm, ⟨79, _⟩ => ⟨S100000x64, .f32⟩
  | .hbm, ⟨80, _⟩ => ⟨S1700000x1, .i32⟩
  | .hbm, ⟨81, _⟩ => ⟨S100000x64, .f32⟩
  | .hbm, ⟨82, _⟩ => ⟨S1x64, .f32⟩
  | .hbm, ⟨83, _⟩ => ⟨S1x64, .f32⟩
  | .hbm, ⟨84, _⟩ => ⟨S1x1, .f32⟩
  | .hbm, ⟨85, _⟩ => ⟨S100000x1, .f32⟩
  | .local _ .vmem, ⟨0, _⟩ => ⟨S10000x1, .f32⟩
  | .local _ .vmem, ⟨1, _⟩ => ⟨S10000x1, .f32⟩
  | .local _ .vmem, ⟨2, _⟩ => ⟨S1x64, .f32⟩
  | .local _ .vmem, ⟨3, _⟩ => ⟨S1x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S64x64, .f32⟩
  | .local _ .vmem, ⟨9, _⟩ => ⟨S1x64, .f32⟩
  | .local _ .vmem, ⟨10, _⟩ => ⟨S64x64, .f32⟩
  | .local _ .vmem, ⟨11, _⟩ => ⟨S1x64, .f32⟩
  | .local _ .vmem, ⟨12, _⟩ => ⟨S64x1, .f32⟩
  | .local _ .vmem, ⟨13, _⟩ => ⟨S1x1, .f32⟩
  | .local _ .vmem, ⟨14, _⟩ => ⟨S10000x1, .f32⟩
  | .local _ .vmem, ⟨15, _⟩ => ⟨S10000x1, .f32⟩
  | _, _ => ⟨S100000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_8 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_c_9 : Ref sig .tc := ⟨.hbm, 67, rfl⟩
abbrev main_v44 : Ref sig .tc := ⟨.hbm, 68, rfl⟩
abbrev main_v45 : Ref sig .tc := ⟨.hbm, 69, rfl⟩
abbrev main_c_10 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_11 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg7_0 : Ref sig .tc := ⟨.vmem, 14, rfl⟩
abbrev cc1_stg7_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem7_0 : DmaSem sig := 14
abbrev cc1_sem7_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S10000x1 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S100000x1 : S_.BroadcastsInDim S100000x1 (![] : Fin 0 → Fin S100000x1.rank)
  shapeCasts_S64_S1x64 : S64.ShapeCasts S1x64
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  inb_S1x64_S1x64_0_0 : ∀ a, (![0, 0] : Fin 2 → Nat) a + S1x64.size a ≤ S1x64.size a
  h_S1x64 : 0 < S1x64.numel
  broadcasts_S10000x1_S10000x64 : S10000x1.Broadcasts S10000x64
  broadcasts_S1x64_S10000x64 : S1x64.Broadcasts S10000x64
  shapeCasts_S1x64_S1x64 : S1x64.ShapeCasts S1x64
  inb_S10000x64_S10000x64_0_0 : ∀ a, (![0, 0] : Fin 2 → Nat) a + S10000x64.size a ≤ S10000x64.size a
  h_S10000x64 : 0 < S10000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S1_S1x1 : S1.ShapeCasts S1x1
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x1 : S1x1.Broadcasts S10000x1
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x1_S1700000x1_S1700000x1_1_0_n_n_0_1_11_wf : GatherDims.WF S100000x1 S1700000x1 S1700000x1 [1] [0] [] [0] [] 1 ![1, 1]
  scatter_S100000x1_S1700000x1_S1700000x1_1_0_0_1_wf : ScatterDims.WF S100000x1 S1700000x1 S1700000x1 [1] [0] [0] 1
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S10000x64_S64x64_S10000x64_1_0_0_1_n_n_wf : DotDims.WF S10000x64 S64x64 S10000x64 [1] [0] [0] [1] [] []
  dot_S10000x64_S64x1_S10000x1_1_0_0_1_n_n_wf : DotDims.WF S10000x64 S64x1 S10000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x1.size a ≤ S100000x1.size a
  hwx0_0 : ∀ i : grid0.Coords, EltTy.bits .f32 = 32 ∨ (Rect.block (s := S100000x1) S10000x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x64.size a ≤ S1x64.size a
  hwx0_1 : ∀ i : grid0.Coords, EltTy.bits .f32 = 32 ∨ (Rect.block (s := S1x64) S1x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S100000x64.size a
  hwx0_3 : ∀ i : grid0.Coords, EltTy.bits .f32 = 32 ∨ (Rect.block (s := S100000x64) S10000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x1.size a ≤ S64x1.size a
  hwx1_5 : ∀ i : grid1.Coords, EltTy.bits .f32 = 32 ∨ (Rect.block (s := S64x1) S64x1.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x1.size a ≤ S1x1.size a
  hwx1_6 : ∀ i : grid1.Coords, EltTy.bits .f32 = 32 ∨ (Rect.block (s := S1x1) S1x1.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S10000x1.size a ≤ S100000x1.size a
  hwx1_7 : ∀ i : grid1.Coords, EltTy.bits .f32 = 32 ∨ (Rect.block (s := S100000x1) S10000x1.size (cc1_transform_7 i) (hinb1_7 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x1_S1700000x1_S1700000x1_1_0_n_n_0_1_11 : GatherDims S100000x1 S1700000x1 S1700000x1 where
  offsetDims := [1]
  collapsedSliceDims := [0]
  operandBatchingDims := []
  startIndicesBatchingDims := []
  startIndexMap := [0]
  indexVectorDim := 1
  sliceSizes := ![1, 1]
  wf := gather_S100000x1_S1700000x1_S1700000x1_1_0_n_n_0_1_11_wf
def scatter_S100000x1_S1700000x1_S1700000x1_1_0_0_1 : ScatterDims S100000x1 S1700000x1 S1700000x1 where
  updateWindowDims := [1]
  insertedWindowDims := [0]
  scatterDimsToOperandDims := [0]
  indexVectorDim := 1
  wf := scatter_S100000x1_S1700000x1_S1700000x1_1_0_0_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x1_S10000x1_1_0_0_1_n_n : DotDims S10000x64 S64x1 S10000x1 where
  lhsContracting := [1]
  rhsContracting := [0]
  lhsNonContracting := [0]
  rhsNonContracting := [1]
  lhsBatch := []
  rhsBatch := []
  wf := dot_S10000x64_S64x1_S10000x1_1_0_0_1_n_n_wf

abbrev win0_0 : Pipeline.Window sig grid0 :=
  Pipeline.Window.ofSpec (Memref.whole main_v41) S10000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v42) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v43) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v55) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v56) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v57) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S64x1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v58) S1x1.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v59) S10000x1.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S100000x1 : Shape := ⟨2, ![100000, 1]⟩
abbrev S2x1600000 : Shape := ⟨2, ![2, 1600000]⟩
abbrev S1x64 : Shape := ⟨2, ![1, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S100000x64 : Shape := ⟨2, ![100000, 64]⟩
abbrev S_ : Shape := ⟨0, ![]⟩
abbrev S1700000x1 : Shape := ⟨2, ![1700000, 1]⟩
abbrev S1700000x64 : Shape := ⟨2, ![1700000, 64]⟩
abbrev S1x1 : Shape := ⟨2, ![1, 1]⟩

abbrev nBuf : Space → Nat
  | .hbm => 158
  | .vmem => 0
  | .smem => 0
  | _ => 0

abbrev hbmTy0_0 (i : Nat) : BufTy := match i % 128 with
  | 0 => ⟨S100000x1, .f32⟩
  | 1 => ⟨S2x1600000, .i32⟩
  | 2 => ⟨S1x64, .f32⟩
  | 3 => ⟨S64, .f32⟩
  | 4 => ⟨S64x64, .f32⟩
  | 5 => ⟨S64, .f32⟩
  | 6 => ⟨S64x64, .f32⟩
  | 7 => ⟨S64, .f32⟩
  | 8 => ⟨S64x1, .f32⟩
  | 9 => ⟨S1, .f32⟩
  | 10 => ⟨S100000, .i32⟩
  | 11 => ⟨S1x1600000, .i32⟩
  | 12 => ⟨S1600000, .i32⟩
  | 13 => ⟨S1700000, .i32⟩
  | 14 => ⟨S1x1600000, .i32⟩
  | 15 => ⟨S1600000, .i32⟩
  | 16 => ⟨S1700000, .i32⟩
  | 17 => ⟨S100000x64, .f32⟩
  | 18 => ⟨S_, .f32⟩
  | 19 => ⟨S1700000, .f32⟩
  | 20 => ⟨S_, .f32⟩
  | 21 => ⟨S100000, .f32⟩
  | 22 => ⟨S1700000x1, .i32⟩
  | 23 => ⟨S100000, .f32⟩
  | 24 => ⟨S_, .f32⟩
  | 25 => ⟨S100000, .f32⟩
  | 26 => ⟨S100000, .i1⟩
  | 27 => ⟨S100000, .f32⟩
  | 28 => ⟨S_, .f32⟩
  | 29 => ⟨S_, .f32⟩
  | 30 => ⟨S100000, .f32⟩
  | 31 => ⟨S100000, .f32⟩
  | 32 => ⟨S_, .i32⟩
  | 33 => ⟨S1700000, .i32⟩
  | 34 => ⟨S1700000, .i1⟩
  | 35 => ⟨S_, .i32⟩
  | 36 => ⟨S1700000, .i32⟩
  | 37 => ⟨S1700000, .i32⟩
  | 38 => ⟨S1700000, .i32⟩
  | 39 => ⟨S1700000x1, .i32⟩
  | 40 => ⟨S1700000, .f32⟩
  | 41 => ⟨S_, .i32⟩
  | 42 => ⟨S1700000, .i32⟩
  | 43 => ⟨S1700000, .i1⟩
  | 44 => ⟨S_, .i32⟩
  | 45 => ⟨S1700000, .i32⟩
  | 46 => ⟨S1700000, .i32⟩
  | 47 => ⟨S1700000, .i32⟩
  | 48 => ⟨S1700000x1, .i32⟩
  | 49 => ⟨S1700000, .f32⟩
  | 50 => ⟨S1700000, .f32⟩
  | 51 => ⟨S_, .i32⟩
  | 52 => ⟨S1700000, .i32⟩
  | 53 => ⟨S1700000, .i1⟩
  | 54 => ⟨S_, .i32⟩
  | 55 => ⟨S1700000, .i32⟩
  | 56 => ⟨S1700000, .i32⟩
  | 57 => ⟨S1700000, .i32⟩
  | 58 => ⟨S1700000x1, .i32⟩
  | 59 => ⟨S1700000x64, .f32⟩
  | 60 => ⟨S1700000x1, .f32⟩
  | 61 => ⟨S1700000x64, .f32⟩
  | 62 => ⟨S1700000x64, .f32⟩
  | 63 => ⟨S_, .f32⟩
  | 64 => ⟨S100000x64, .f32⟩
  | 65 => ⟨S1700000x1, .i32⟩
  | 66 => ⟨S100000x64, .f32⟩
  | 67 => ⟨S1x64, .f32⟩
  | 68 => ⟨S100000x64, .f32⟩
  | 69 => ⟨S100000x64, .f32⟩
  | 70 => ⟨S100000x64, .f32⟩
  | 71 => ⟨S100000x64, .f32⟩
  | 72 => ⟨S_, .f32⟩
  | 73 => ⟨S100000x64, .f32⟩
  | 74 => ⟨S100000x64, .f32⟩
  | 75 => ⟨S_, .f32⟩
  | 76 => ⟨S100000x64, .f32⟩
  | 77 => ⟨S100000x64, .f32⟩
  | 78 => ⟨S100000x64, .f32⟩
  | 79 => ⟨S100000x64, .f32⟩
  | 80 => ⟨S_, .f32⟩
  | 81 => ⟨S1700000, .f32⟩
  | 82 => ⟨S_, .f32⟩
  | 83 => ⟨S100000, .f32⟩
  | 84 => ⟨S1700000x1, .i32⟩
  | 85 => ⟨S100000, .f32⟩
  | 86 => ⟨S_, .f32⟩
  | 87 => ⟨S100000, .f32⟩
  | 88 => ⟨S100000, .i1⟩
  | 89 => ⟨S100000, .f32⟩
  | 90 => ⟨S_, .f32⟩
  | 91 => ⟨S_, .f32⟩
  | 92 => ⟨S100000, .f32⟩
  | 93 => ⟨S100000, .f32⟩
  | 94 => ⟨S_, .i32⟩
  | 95 => ⟨S1700000, .i32⟩
  | 96 => ⟨S1700000, .i1⟩
  | 97 => ⟨S_, .i32⟩
  | 98 => ⟨S1700000, .i32⟩
  | 99 => ⟨S1700000, .i32⟩
  | 100 => ⟨S1700000, .i32⟩
  | 101 => ⟨S1700000x1, .i32⟩
  | 102 => ⟨S1700000, .f32⟩
  | 103 => ⟨S_, .i32⟩
  | 104 => ⟨S1700000, .i32⟩
  | 105 => ⟨S1700000, .i1⟩
  | 106 => ⟨S_, .i32⟩
  | 107 => ⟨S1700000, .i32⟩
  | 108 => ⟨S1700000, .i32⟩
  | 109 => ⟨S1700000, .i32⟩
  | 110 => ⟨S1700000x1, .i32⟩
  | 111 => ⟨S1700000, .f32⟩
  | 112 => ⟨S1700000, .f32⟩
  | 113 => ⟨S_, .i32⟩
  | 114 => ⟨S1700000, .i32⟩
  | 115 => ⟨S1700000, .i1⟩
  | 116 => ⟨S_, .i32⟩
  | 117 => ⟨S1700000, .i32⟩
  | 118 => ⟨S1700000, .i32⟩
  | 119 => ⟨S1700000, .i32⟩
  | 120 => ⟨S1700000x1, .i32⟩
  | 121 => ⟨S1700000x64, .f32⟩
  | 122 => ⟨S1700000x1, .f32⟩
  | 123 => ⟨S1700000x64, .f32⟩
  | 124 => ⟨S1700000x64, .f32⟩
  | 125 => ⟨S_, .f32⟩
  | 126 => ⟨S100000x64, .f32⟩
  | 127 => ⟨S1700000x1, .i32⟩
  | _ => ⟨S100000x1, .f32⟩

abbrev hbmTy0_1 (i : Nat) : BufTy := match i % 128 with
  | 0 => ⟨S100000x64, .f32⟩
  | 1 => ⟨S1x64, .f32⟩
  | 2 => ⟨S100000x64, .f32⟩
  | 3 => ⟨S100000x64, .f32⟩
  | 4 => ⟨S100000x64, .f32⟩
  | 5 => ⟨S100000x64, .f32⟩
  | 6 => ⟨S_, .f32⟩
  | 7 => ⟨S100000x64, .f32⟩
  | 8 => ⟨S100000x64, .f32⟩
  | 9 => ⟨S_, .f32⟩
  | 10 => ⟨S100000x64, .f32⟩
  | 11 => ⟨S100000x64, .f32⟩
  | 12 => ⟨S100000x64, .f32⟩
  | 13 => ⟨S100000x64, .f32⟩
  | 14 => ⟨S1x64, .f32⟩
  | 15 => ⟨S100000x64, .f32⟩
  | 16 => ⟨S100000x64, .f32⟩
  | 17 => ⟨S100000x64, .f32⟩
  | 18 => ⟨S100000x64, .f32⟩
  | 19 => ⟨S_, .f32⟩
  | 20 => ⟨S100000x64, .f32⟩
  | 21 => ⟨S100000x64, .f32⟩
  | 22 => ⟨S_, .f32⟩
  | 23 => ⟨S100000x64, .f32⟩
  | 24 => ⟨S100000x64, .f32⟩
  | 25 => ⟨S100000x64, .f32⟩
  | 26 => ⟨S100000x1, .f32⟩
  | 27 => ⟨S1x1, .f32⟩
  | 28 => ⟨S100000x1, .f32⟩
  | 29 => ⟨S100000x1, .f32⟩
  | _ => ⟨S100000x1, .f32⟩

abbrev hbmTy (i : Nat) : BufTy := match i / 128 with
  | 0 => hbmTy0_0 i
  | 1 => hbmTy0_1 i
  | _ => ⟨S100000x1, .f32⟩

abbrev bufTy : (tb : Table) → Fin (tcTables nBuf tb) → BufTy
  | .hbm, ⟨i, _⟩ => hbmTy i
  | _, _ => ⟨S100000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v15 : Ref sig .tc := ⟨.hbm, 31, rfl⟩
abbrev main_c : Ref sig .tc := ⟨.hbm, 32, rfl⟩
abbrev main_v16 : Ref sig .tc := ⟨.hbm, 33, rfl⟩
abbrev main_v17 : Ref sig .tc := ⟨.hbm, 34, rfl⟩
abbrev main_c_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_c_4 : Ref sig .tc := ⟨.hbm, 41, rfl⟩
abbrev main_v23 : Ref sig .tc := ⟨.hbm, 42, rfl⟩
abbrev main_v24 : Ref sig .tc := ⟨.hbm, 43, rfl⟩
abbrev main_c_5 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_call1_v0 : Ref sig .tc := ⟨.hbm, 70, rfl⟩
abbrev main_call1_v1 : Ref sig .tc := ⟨.hbm, 71, rfl⟩
abbrev main_call1_cst : Ref sig .tc := ⟨.hbm, 72, rfl⟩
abbrev main_call1_v2 : Ref sig .tc := ⟨.hbm, 73, rfl⟩
abbrev main_call1_v3 : Ref sig .tc := ⟨.hbm, 74, rfl⟩
abbrev main_call1_cst_0 : Ref sig .tc := ⟨.hbm, 75, rfl⟩
abbrev main_call1_v4 : Ref sig .tc := ⟨.hbm, 76, rfl⟩
abbrev main_call1_v5 : Ref sig .tc := ⟨.hbm, 77, rfl⟩
abbrev main_v47 : Ref sig .tc := ⟨.hbm, 78, rfl⟩
abbrev main_v48 : Ref sig .tc := ⟨.hbm, 79, rfl⟩
abbrev main_cst_9 : Ref sig .tc := ⟨.hbm, 80, rfl⟩
abbrev main_v49 : Ref sig .tc := ⟨.hbm, 81, rfl⟩
abbrev main_cst_10 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_cst_11 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_cst_12 : Ref sig .tc := ⟨.hbm, 90, rfl⟩
abbrev main_call2_v0 : Ref sig .tc := ⟨.hbm, 91, rfl⟩
abbrev main_call2_v1 : Ref sig .tc := ⟨.hbm, 92, rfl⟩
abbrev main_v56 : Ref sig .tc := ⟨.hbm, 93, rfl⟩
abbrev main_c_13 : Ref sig .tc := ⟨.hbm, 94, rfl⟩
abbrev main_v57 : Ref sig .tc := ⟨.hbm, 95, rfl⟩
abbrev main_v58 : Ref sig .tc := ⟨.hbm, 96, rfl⟩
abbrev main_c_14 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_c_15 : Ref sig .tc := ⟨.hbm, 103, rfl⟩
abbrev main_v64 : Ref sig .tc := ⟨.hbm, 104, rfl⟩
abbrev main_v65 : Ref sig .tc := ⟨.hbm, 105, rfl⟩
abbrev main_c_16 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_c_17 : Ref sig .tc := ⟨.hbm, 113, rfl⟩
abbrev main_v72 : Ref sig .tc := ⟨.hbm, 114, rfl⟩
abbrev main_v73 : Ref sig .tc := ⟨.hbm, 115, rfl⟩
abbrev main_c_18 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_cst_19 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_call3_v0 : Ref sig .tc := ⟨.hbm, 132, rfl⟩
abbrev main_call3_v1 : Ref sig .tc := ⟨.hbm, 133, rfl⟩
abbrev main_call3_cst : Ref sig .tc := ⟨.hbm, 134, rfl⟩
abbrev main_call3_v2 : Ref sig .tc := ⟨.hbm, 135, rfl⟩
abbrev main_call3_v3 : Ref sig .tc := ⟨.hbm, 136, rfl⟩
abbrev main_call3_cst_0 : Ref sig .tc := ⟨.hbm, 137, rfl⟩
abbrev main_call3_v4 : Ref sig .tc := ⟨.hbm, 138, rfl⟩
abbrev main_call3_v5 : Ref sig .tc := ⟨.hbm, 139, rfl⟩
abbrev main_v88 : Ref sig .tc := ⟨.hbm, 140, rfl⟩
abbrev main_v89 : Ref sig .tc := ⟨.hbm, 141, rfl⟩
abbrev main_v90 : Ref sig .tc := ⟨.hbm, 142, rfl⟩
abbrev main_v91 : Ref sig .tc := ⟨.hbm, 143, rfl⟩
abbrev main_v92 : Ref sig .tc := ⟨.hbm, 144, rfl⟩
abbrev main_call4_v0 : Ref sig .tc := ⟨.hbm, 145, rfl⟩
abbrev main_call4_v1 : Ref sig .tc := ⟨.hbm, 146, rfl⟩
abbrev main_call4_cst : Ref sig .tc := ⟨.hbm, 147, rfl⟩
abbrev main_call4_v2 : Ref sig .tc := ⟨.hbm, 148, rfl⟩
abbrev main_call4_v3 : Ref sig .tc := ⟨.hbm, 149, rfl⟩
abbrev main_call4_cst_0 : Ref sig .tc := ⟨.hbm, 150, rfl⟩
abbrev main_call4_v4 : Ref sig .tc := ⟨.hbm, 151, rfl⟩
abbrev main_call4_v5 : Ref sig .tc := ⟨.hbm, 152, rfl⟩
abbrev main_v93 : Ref sig .tc := ⟨.hbm, 153, rfl⟩
abbrev main_v94 : Ref sig .tc := ⟨.hbm, 154, rfl⟩
abbrev main_v95 : Ref sig .tc := ⟨.hbm, 155, rfl⟩
abbrev main_v96 : Ref sig .tc := ⟨.hbm, 156, rfl⟩
abbrev main_v97 : Ref sig .tc := ⟨.hbm, 157, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  dot_S100000x1_S1x64_S100000x64_1_0_0_1_n_n_wf : DotDims.WF S100000x1 S1x64 S100000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x64_S100000x64_1_0_0_1_n_n_wf : DotDims.WF S100000x64 S64x64 S100000x64 [1] [0] [0] [1] [] []
  dot_S100000x64_S64x1_S100000x1_1_0_0_1_n_n_wf : DotDims.WF S100000x64 S64x1 S100000x1 [1] [0] [0] [1] [] []

variable [Facts₀]

def dot_S100000x1_S1x64_S100000x64_1_0_0_1_n_n : DotDims S100000x1 S1x64 S100000x64 where
  lhsContracting := [1]
  rhsContracting := [0]
  lhsNonContracting := [0]
  rhsNonContracting := [1]
  lhsBatch := []
  rhsBatch := []
  wf := dot_S100000x1_S1x64_S100000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf

class Facts : Prop extends Facts₀ where

variable [Facts]
-- ==== Proof.KSpec.lean ====
/-
  The edge lists and the edge weights, as functions of the [2, E] edge-index input.
  Sources and destinations are the two rows of the edge index, each followed by the self loops 0 … N-1.
  A node's degree counts the edges that land in it (a scatter-add of ones), its inverse square root is taken where the
  degree is positive and is 0 elsewhere, and an edge's weight is the product of that quantity at its source and at its
  destination, both read with negative indices wrapped by N and then clamped, as the table reads are.
-/
import proofs.«419798_j51900384804999_3_alg».proof.KernelIdeal

noncomputable section

namespace Cert.KernelIdeal.Spec

open Idealize.ShloMosaic Cert.KernelIdeal

variable {F : FTy → Type} [FloatOps F] [Facts]
open Facts₀ Facts

/-- Row r of the edge index followed by the self loops. -/
def srcIx (ei : (⟨S2x1600000, .i32⟩ : BufTy).Contents (Elt F)) : (⟨S1700000, .i32⟩ : BufTy).Contents (Elt F) :=
  concatenate S1700000 0 [⟨S1600000, shapeCast S1600000 (extractStridedSlice S1x1600000 ![0, 0] ei slices_S2x1600000_S1x1600000_0_0) shapeCasts_S1x1600000_S1600000⟩, ⟨S100000, iotaInDim S100000 32 0⟩] concatenates_S1600000_S100000_S1700000_d0

def dstIx (ei : (⟨S2x1600000, .i32⟩ : BufTy).Contents (Elt F)) : (⟨S1700000, .i32⟩ : BufTy).Contents (Elt F) :=
  concatenate S1700000 0 [⟨S1600000, shapeCast S1600000 (extractStridedSlice S1x1600000 ![1, 0] ei slices_S2x1600000_S1x1600000_1_0) shapeCasts_S1x1600000_S1600000⟩, ⟨S100000, iotaInDim S100000 32 0⟩] concatenates_S1600000_S100000_S1700000_d0

/-- A negative index wrapped by the number of nodes. -/
def wrapIx (v : (⟨S1700000, .i32⟩ : BufTy).Contents (Elt F)) : (⟨S1700000, .i32⟩ : BufTy).Contents (Elt F) :=
  select (cmpi .slt v (broadcastInDim S1700000 ![] bcast_S_S1700000 (constantI S_ 32 0#32)))
    (addi v (broadcastInDim S1700000 ![] bcast_S_S1700000 (constantI S_ 32 100000#32))) v

/-- An index vector as the one-column table the gathers and scatters take. -/
def colI (v : (⟨S1700000, .i32⟩ : BufTy).Contents (Elt F)) : (⟨S1700000x1, .i32⟩ : BufTy).Contents (Elt F) :=
  broadcastInDim S1700000x1 ![0] bcast_S1700000_S1700000x1_0 v

/-- The in-degree of every node, self loop included. -/
def degV (ei : (⟨S2x1600000, .i32⟩ : BufTy).Contents (Elt F)) : FVec F S100000 .f32 :=
  Host.scatterAdd scatter_S100000_S1700000x1_S1700000_n_0_0_1
    (broadcastInDim S100000 ![] bcast_S_S100000 (constant S_ .f32 0x00000000#32))
    (colI (F := F) (dstIx (F := F) ei))
    (broadcastInDim S1700000 ![] bcast_S_S1700000 (constant S_ .f32 0x3F800000#32))

/-- 1/sqrt(degree) where the degree is positive, 0 elsewhere. -/
def dinvV (ei : (⟨S2x1600000, .i32⟩ : BufTy).Contents (Elt F)) : FVec F S100000 .f32 :=
  select (cmpf (F := F) .ogt (degV (F := F) ei) (broadcastInDim S100000 ![] bcast_S_S100000 (constant S_ .f32 0x00000000#32)))
    (Host.rsqrt (degV (F := F) ei))
    (broadcastInDim S100000 ![] bcast_S_S100000 (id (constant S_ .f32 0x00000000#32)))

/-- The weight of every edge. -/
def normV (ei : (⟨S2x1600000, .i32⟩ : BufTy).Contents (Elt F)) : FVec F S1700000 .f32 :=
  mulf (Host.gather gather_S100000_S1700000x1_S1700000_n_0_n_n_0_1_1 (dinvV (F := F) ei) (colI (F := F) (wrapIx (F := F) (srcIx (F := F) ei))))
    (Host.gather gather_S100000_S1700000x1_S1700000_n_0_n_n_0_1_1 (dinvV (F := F) ei) (colI (F := F) (wrapIx (F := F) (dstIx (F := F) ei))))

end Cert.KernelIdeal.Spec

end
-- ==== Proof.Core.lean ====
/-
  The two message-passing networks as functions on abstract finite index sets.
  A graph layer sums, over the edges landing at a node, the source node's feature row times the edge weight.
  One side projects the features BEFORE that sum, the other AFTER it; on real (finite) entries the two agree, because
  the neighbour sum is linear in the feature row.
-/
import Idealize.ShloMosaic.PureOps.Ideal
import Mathlib.Data.EReal.Operations
import Mathlib.Algebra.BigOperators.Ring.Finset
import Mathlib.Algebra.BigOperators.Fin

noncomputable section

namespace Cert.Core

open Idealize.ShloMosaic

variable {E N : Type} [Fintype E] [DecidableEq N]

/-- x · logistic x on the extended reals. -/
def silu (y : EReal) : EReal := y * Ideal.logistic y

/-- Neighbour aggregation: at node n and feature j, the sum over the edges e that land at n of the feature of e's
    source row times e's weight. -/
def agg {C : Type} (land : E → Option N) (row : E → N) (nrm : E → EReal) (h : N → C → EReal) (n : N) (j : C) : EReal :=
  ∑ e ∈ Finset.univ.filter (fun e => land e = some n), h (row e) j * nrm e

variable (land : E → Option N) (row : E → N) (nrm : E → EReal)
variable (x : N → Fin 1 → EReal) (W1 : Fin 1 → Fin 64 → EReal) (b1 : Fin 64 → EReal)
variable (W2 : Fin 64 → Fin 64 → EReal) (b2 : Fin 64 → EReal) (W3 : Fin 64 → Fin 64 → EReal) (b3 : Fin 64 → EReal)
variable (W4 : Fin 64 → Fin 1 → EReal) (b4 : Fin 1 → EReal)

/-! ## Aggregate first, project afterwards -/

def h1k (n : N) (j : Fin 64) : EReal := silu (agg land row nrm x n 0 * W1 0 j + b1 j)
def h2k (n : N) (j : Fin 64) : EReal :=
  silu ((∑ k : Fin 64, agg land row nrm (h1k land row nrm x W1 b1) n k * W2 k j) + b2 j)

/-! ## Project first, aggregate afterwards -/

def h1r (n : N) (j : Fin 64) : EReal :=
  silu (agg land row nrm (fun n j => ∑ k : Fin 1, x n k * W1 k j) n j + b1 j)
def h2r (n : N) (j : Fin 64) : EReal :=
  silu (agg land row nrm (fun n j => ∑ k : Fin 64, h1r land row nrm x W1 b1 n k * W2 k j) n j + b2 j)

/-! ## The two dense layers after the graph layers, from any second hidden layer -/

def tail (h2 : N → Fin 64 → EReal) (n : N) (z : Fin 1) : EReal :=
  (∑ k : Fin 64, silu ((∑ l : Fin 64, h2 n l * W3 l k) + b3 k) * W4 k z) + b4 z

def outk : N → Fin 1 → EReal := tail W3 b3 W4 b4 (h2k land row nrm x W1 b1 W2 b2)
def outr : N → Fin 1 → EReal := tail W3 b3 W4 b4 (h2r land row nrm x W1 b1 W2 b2)

/-! ## Real entries stay real, and on them the neighbour sum commutes with a projection -/

/-- The coercion of the reals commutes with finite sums. -/
theorem coe_sum {ι : Type} (s : Finset ι) (f : ι → ℝ) :
    ((∑ i ∈ s, f i : ℝ) : EReal) = ∑ i ∈ s, (f i : EReal) := by
  classical
  refine Finset.induction_on s (by simp) ?_
  intro a s ha ih
  rw [Finset.sum_insert ha, Finset.sum_insert ha, EReal.coe_add, ih]

theorem real_add {a b : EReal} (ha : ∃ r : ℝ, a = (r : EReal)) (hb : ∃ r : ℝ, b = (r : EReal)) :
    ∃ r : ℝ, a + b = (r : EReal) := by
  obtain ⟨p, rfl⟩ := ha
  obtain ⟨q, rfl⟩ := hb
  exact ⟨p + q, (EReal.coe_add p q).symm⟩

theorem real_mul {a b : EReal} (ha : ∃ r : ℝ, a = (r : EReal)) (hb : ∃ r : ℝ, b = (r : EReal)) :
    ∃ r : ℝ, a * b = (r : EReal) := by
  obtain ⟨p, rfl⟩ := ha
  obtain ⟨q, rfl⟩ := hb
  exact ⟨p * q, (EReal.coe_mul p q).symm⟩

theorem real_sum {ι : Type} (s : Finset ι) (f : ι → EReal) (hf : ∀ i ∈ s, ∃ r : ℝ, f i = (r : EReal)) :
    ∃ r : ℝ, ∑ i ∈ s, f i = (r : EReal) := by
  classical
  revert hf
  refine Finset.induction_on s (fun _ => ⟨0, by simp⟩) ?_
  intro a s ha ih hf
  rw [Finset.sum_insert ha]
  exact real_add (hf a (Finset.mem_insert_self a s)) (ih fun i hi => hf i (Finset.mem_insert_of_mem hi))

/-- x · logistic x of a real is real: the logistic of a real r is the real 1 / (1 + e^(-r)). -/
theorem real_silu {y : EReal} (hy : ∃ r : ℝ, y = (r : EReal)) : ∃ q : ℝ, silu y = (q : EReal) := by
  obtain ⟨r, rfl⟩ := hy
  exact ⟨r * (1 + Real.exp (-r))⁻¹, by rw [silu, Ideal.logistic_coe, EReal.coe_mul]⟩

theorem real_agg {C : Type} (land : E → Option N) (row : E → N) (nrm : E → EReal) (h : N → C → EReal)
    (hh : ∀ n k, ∃ r : ℝ, h n k = (r : EReal)) (hn : ∀ e, ∃ r : ℝ, nrm e = (r : EReal)) (n : N) (j : C) :
    ∃ r : ℝ, agg land row nrm h n j = (r : EReal) :=
  real_sum _ _ fun e _ => real_mul (hh _ _) (hn e)

/-- Linearity of the neighbour sum, on real entries: projecting the aggregated rows by a matrix W is aggregating the
    projected rows. Both sides are coerced real double sums over (k, e); in ℝ the product distributes over the inner
    sum, the two sums are exchanged, and the factors are reordered. -/
theorem agg_proj {C D : Type} [Fintype C] (land : E → Option N) (row : E → N) (nrm : E → EReal)
    (h : N → C → EReal) (W : C → D → EReal)
    (hh : ∀ n k, ∃ r : ℝ, h n k = (r : EReal)) (hW : ∀ k j, ∃ r : ℝ, W k j = (r : EReal))
    (hn : ∀ e, ∃ r : ℝ, nrm e = (r : EReal)) (n : N) (j : D) :
    ∑ k : C, agg land row nrm h n k * W k j = agg land row nrm (fun n j => ∑ k : C, h n k * W k j) n j := by
  choose hr hhr using hh
  choose Wr hWr using hW
  choose nr hnr using hn
  obtain rfl : h = fun n k => (hr n k : EReal) := funext fun n => funext fun k => hhr n k
  obtain rfl : W = fun k j => (Wr k j : EReal) := funext fun k => funext fun j => hWr k j
  obtain rfl : nrm = fun e => (nr e : EReal) := funext hnr
  unfold agg
  simp only [← EReal.coe_mul, ← coe_sum]
  congr 1
  simp only [Finset.sum_mul]
  exact Finset.sum_comm.trans
    (Finset.sum_congr rfl fun e _ => Finset.sum_congr rfl fun k _ => mul_right_comm _ _ _)

theorem real_h1k
    (hx : ∀ n k, ∃ r : ℝ, x n k = (r : EReal)) (hW1 : ∀ k j, ∃ r : ℝ, W1 k j = (r : EReal))
    (hb1 : ∀ j, ∃ r : ℝ, b1 j = (r : EReal)) (hn : ∀ e, ∃ r : ℝ, nrm e = (r : EReal)) (n : N) (j : Fin 64) :
    ∃ r : ℝ, h1k land row nrm x W1 b1 n j = (r : EReal) :=
  real_silu (real_add (real_mul (real_agg land row nrm x hx hn n 0) (hW1 0 j)) (hb1 j))

/-- First graph layer: with one input feature, the sum over k : Fin 1 is its single term. -/
theorem h1k_eq_h1r
    (hx : ∀ n k, ∃ r : ℝ, x n k = (r : EReal)) (hW1 : ∀ k j, ∃ r : ℝ, W1 k j = (r : EReal))
    (hn : ∀ e, ∃ r : ℝ, nrm e = (r : EReal)) :
    h1k land row nrm x W1 b1 = h1r land row nrm x W1 b1 := by
  funext n j
  unfold h1k h1r
  rw [← agg_proj land row nrm x W1 hx hW1 hn n j, Fin.sum_univ_one]

/-- Second graph layer, from a real first hidden layer. -/
theorem h2k_eq_h2r
    (hx : ∀ n k, ∃ r : ℝ, x n k = (r : EReal)) (hW1 : ∀ k j, ∃ r : ℝ, W1 k j = (r : EReal))
    (hb1 : ∀ j, ∃ r : ℝ, b1 j = (r : EReal)) (hW2 : ∀ k j, ∃ r : ℝ, W2 k j = (r : EReal))
    (hn : ∀ e, ∃ r : ℝ, nrm e = (r : EReal)) :
    h2k land row nrm x W1 b1 W2 b2 = h2r land row nrm x W1 b1 W2 b2 := by
  funext n j
  unfold h2k h2r
  rw [← h1k_eq_h1r land row nrm x W1 b1 hx hW1 hn,
    agg_proj land row nrm (h1k land row nrm x W1 b1) W2 (real_h1k land row nrm x W1 b1 hx hW1 hb1 hn) hW2 hn n j]

/-- On real entries of the features, the first two weight matrices, the first bias and the edge weights, the two
    networks are one function. -/
theorem out_eq
    (hx : ∀ n k, ∃ r : ℝ, x n k = (r : EReal)) (hW1 : ∀ k j, ∃ r : ℝ, W1 k j = (r : EReal))
    (hb1 : ∀ j, ∃ r : ℝ, b1 j = (r : EReal)) (hW2 : ∀ k j, ∃ r : ℝ, W2 k j = (r : EReal))
    (hn : ∀ e, ∃ r : ℝ, nrm e = (r : EReal)) :
    outk land row nrm x W1 b1 W2 b2 W3 b3 W4 b4 = outr land row nrm x W1 b1 W2 b2 W3 b3 W4 b4 := by
  unfold outk outr
  rw [h2k_eq_h2r land row nrm x W1 b1 W2 b2 hx hW1 hb1 hW2 hn]

end Cert.Core

end
-- ==== Proof.LibDotSum.lean ====
/-
  A matrix product with ONE contracted axis, read at an output index as a sum over that axis's coordinate.
  The library states the product's value as a sum over the dimension numbers' contraction index set of the operands at
  two computed operand indices. For the two patterns below the contraction index is one coordinate `k`, and the operand
  indices are (r, k), (k, c) for rows × columns, and (k, r), (k, c) when the left operand is contracted over its rows.
  Each is stated for any extents and any dimension-numbers record with those axis lists.
-/
import Idealize.ShloMosaic.PureOps.Ideal.Laws
import Idealize.ShloMosaic.Lib.ValueIdx

noncomputable section

namespace Cert.Lib

open Idealize.ShloMosaic Idealize.ShloMosaic.ValueIdx

variable {M K N : Nat}

/-! ## Rows × columns: left axis 1 against right axis 0 -/

/-- The dimension numbers of an [M, K] × [K, N] product. -/
def rc (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ := ⟨[1], [0], [0], [1], [], [], wf⟩

variable (wf : DotDims.WF ⟨2, ![M, K]⟩ ⟨2, ![K, N]⟩ ⟨2, ![M, N]⟩ [1] [0] [0] [1] [] [])

theorem rc_lhs_0 (i : (⟨2, ![M, N]⟩ : Shape).Idx) (q : (rc wf).contr.Idx) : ((rc wf).lhsIdx i q 0).val = (i 0).val := by
  unfold DotDims.lhsIdx
  rw [dif_neg (show ¬(0 : Fin (⟨2, ![M, K]⟩ : Shape).rank) ∈ (rc wf).lhsBatch by simp [rc]),
    dif_pos (show (0 : Fin (⟨2, ![M, K]⟩ : Shape).rank) ∈ (rc wf).lhsNonContracting by simp [rc])]
  rfl
theorem rc_lhs_1 (i : (⟨2, ![M, N]⟩ : Shape).Idx) (q : (rc wf).contr.Idx) :
    ((rc wf).lhsIdx i q 1).val = (q ⟨0, Nat.one_pos⟩).val :=
  (rc wf).lhsIdx_val_of_single rfl i q
theorem rc_rhs_0 (i : (⟨2, ![M, N]⟩ : Shape).Idx) (q : (rc wf).contr.Idx) :
    ((rc wf).rhsIdx i q 0).val = (q ⟨0, Nat.one_pos⟩).val :=
  (rc wf).rhsIdx_val_of_single rfl i q
theorem rc_rhs_1 (i : (⟨2, ![M, N]⟩ : Shape).Idx) (q : (rc wf).contr.Idx) : ((rc wf).rhsIdx i q 1).val = (i 1).val := by
  unfold DotDims.rhsIdx
  rw [dif_neg (show ¬(1 : Fin (⟨2, ![K, N]⟩ : Shape).rank) ∈ (rc wf).rhsBatch by simp [rc]),
    dif_pos (show (1 : Fin (⟨2, ![K, N]⟩ : Shape).rank) ∈ (rc wf).rhsNonContracting by simp [rc])]
  rfl

/-- The contraction sum of a rows × columns product at (r, c) runs over the pairs (r, k), (k, c). -/
theorem sum_rc {β : Type} [AddCommMonoid β] (f : (⟨2, ![M, K]⟩ : Shape).Idx → (⟨2, ![K, N]⟩ : Shape).Idx → β)
    (r : Fin M) (c : Fin N) :
    ∑ k : (rc wf).contr.Idx, f ((rc wf).lhsIdx (ix2 r c) k) ((rc wf).rhsIdx (ix2 r c) k)
      = ∑ k : Fin K, f (ix2 r k) (ix2 k c) := by
  rw [← Equiv.sum_comp (contrEquiv1 (rc wf) K rfl rfl).symm]
  refine Finset.sum_congr rfl fun k _ => ?_
  have hk := contrEquiv1_symm_val (rc wf) K rfl rfl k
  have el : (rc wf).lhsIdx (ix2 r c) ((contrEquiv1 (rc wf) K rfl rfl).symm k) = ix2 r k := funext fun a => Fin.ext (by
    match a with
    | ⟨0, _⟩ => exact rc_lhs_0 wf _ _
    | ⟨1, _⟩ => exact (rc_lhs_1 wf _ _).trans hk)
  have er : (rc wf).rhsIdx (ix2 r c) ((contrEquiv1 (rc wf) K rfl rfl).symm k) = ix2 k c := funext fun a => Fin.ext (by
    match a with
    | ⟨0, _⟩ => exact (rc_rhs_0 wf _ _).trans hk
    | ⟨1, _⟩ => exact rc_rhs_1 wf _ _)
  rw [el, er]

/-- The same for any record with those axis lists. -/
theorem sum_contr_rc {β : Type} [AddCommMonoid β] (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (f : (⟨2, ![M, K]⟩ : Shape).Idx → (⟨2, ![K, N]⟩ : Shape).Idx → β) (r : Fin M) (c : Fin N) :
    ∑ k : d.contr.Idx, f (d.lhsIdx (ix2 r c) k) (d.rhsIdx (ix2 r c) k) = ∑ k : Fin K, f (ix2 r k) (ix2 k c) := by
  obtain ⟨lc, rc', ln, rn, lb, rb, wf'⟩ := d
  simp only at hlc hrc hln hrn hlb hrb
  subst hlc hrc hln hrn hlb hrb
  exact sum_rc wf' f r c

/-! ## Left operand contracted over its rows: left axis 0 against right axis 0 -/

/-- The dimension numbers of a [K, M]ᵀ × [K, N] product. -/
def cc (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ := ⟨[0], [0], [1], [1], [], [], wf⟩

variable (wg : DotDims.WF ⟨2, ![K, M]⟩ ⟨2, ![K, N]⟩ ⟨2, ![M, N]⟩ [0] [0] [1] [1] [] [])

theorem cc_lhs_0 (i : (⟨2, ![M, N]⟩ : Shape).Idx) (q : (cc wg).contr.Idx) :
    ((cc wg).lhsIdx i q 0).val = (q ⟨0, Nat.one_pos⟩).val :=
  (cc wg).lhsIdx_val_of_single rfl i q
theorem cc_lhs_1 (i : (⟨2, ![M, N]⟩ : Shape).Idx) (q : (cc wg).contr.Idx) : ((cc wg).lhsIdx i q 1).val = (i 0).val := by
  unfold DotDims.lhsIdx
  rw [dif_neg (show ¬(1 : Fin (⟨2, ![K, M]⟩ : Shape).rank) ∈ (cc wg).lhsBatch by simp [cc]),
    dif_pos (show (1 : Fin (⟨2, ![K, M]⟩ : Shape).rank) ∈ (cc wg).lhsNonContracting by simp [cc])]
  rfl
theorem cc_rhs_0 (i : (⟨2, ![M, N]⟩ : Shape).Idx) (q : (cc wg).contr.Idx) :
    ((cc wg).rhsIdx i q 0).val = (q ⟨0, Nat.one_pos⟩).val :=
  (cc wg).rhsIdx_val_of_single rfl i q
theorem cc_rhs_1 (i : (⟨2, ![M, N]⟩ : Shape).Idx) (q : (cc wg).contr.Idx) : ((cc wg).rhsIdx i q 1).val = (i 1).val := by
  unfold DotDims.rhsIdx
  rw [dif_neg (show ¬(1 : Fin (⟨2, ![K, N]⟩ : Shape).rank) ∈ (cc wg).rhsBatch by simp [cc]),
    dif_pos (show (1 : Fin (⟨2, ![K, N]⟩ : Shape).rank) ∈ (cc wg).rhsNonContracting by simp [cc])]
  rfl

/-- The contraction sum at (r, c) runs over the pairs (k, r), (k, c). -/
theorem sum_cc {β : Type} [AddCommMonoid β] (f : (⟨2, ![K, M]⟩ : Shape).Idx → (⟨2, ![K, N]⟩ : Shape).Idx → β)
    (r : Fin M) (c : Fin N) :
    ∑ k : (cc wg).contr.Idx, f ((cc wg).lhsIdx (ix2 r c) k) ((cc wg).rhsIdx (ix2 r c) k)
      = ∑ k : Fin K, f (ix2 k r) (ix2 k c) := by
  rw [← Equiv.sum_comp (contrEquiv1 (cc wg) K rfl rfl).symm]
  refine Finset.sum_congr rfl fun k _ => ?_
  have hk := contrEquiv1_symm_val (cc wg) K rfl rfl k
  have el : (cc wg).lhsIdx (ix2 r c) ((contrEquiv1 (cc wg) K rfl rfl).symm k) = ix2 k r := funext fun a => Fin.ext (by
    match a with
    | ⟨0, _⟩ => exact (cc_lhs_0 wg _ _).trans hk
    | ⟨1, _⟩ => exact cc_lhs_1 wg _ _)
  have er : (cc wg).rhsIdx (ix2 r c) ((contrEquiv1 (cc wg) K rfl rfl).symm k) = ix2 k c := funext fun a => Fin.ext (by
    match a with
    | ⟨0, _⟩ => exact (cc_rhs_0 wg _ _).trans hk
    | ⟨1, _⟩ => exact cc_rhs_1 wg _ _)
  rw [el, er]

/-- The same for any record with those axis lists. -/
theorem sum_contr_cc {β : Type} [AddCommMonoid β] (d : DotDims ⟨2, ![K, M]⟩ ⟨2, ![K, N]⟩ ⟨2, ![M, N]⟩)
    (hlc : d.lhsContracting = [0]) (hrc : d.rhsContracting = [0])
    (hln : d.lhsNonContracting = [1]) (hrn : d.rhsNonContracting = [1])
    (hlb : d.lhsBatch = []) (hrb : d.rhsBatch = [])
    (f : (⟨2, ![K, M]⟩ : Shape).Idx → (⟨2, ![K, N]⟩ : Shape).Idx → β) (r : Fin M) (c : Fin N) :
    ∑ k : d.contr.Idx, f (d.lhsIdx (ix2 r c) k) (d.rhsIdx (ix2 r c) k) = ∑ k : Fin K, f (ix2 k r) (ix2 k c) := by
  obtain ⟨lc, rc', ln, rn, lb, rb, wf'⟩ := d
  simp only at hlc hrc hln hrn hlb hrb
  subst hlc hrc hln hrn hlb hrb
  exact sum_cc wf' f r c

/-! ## The products themselves, at an output index -/

/-- A rows × columns block product into the zero accumulator, at (r, c): the sum over k of A (r, k) · B (k, c). -/
theorem matmul_rc_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (A : FVec Ideal ⟨2, ![M, K]⟩ φ₁) (B : FVec Ideal ⟨2, ![K, N]⟩ φ₂) (r : Fin M) (c : Fin N) :
    matmul d prec A B (constant ⟨2, ![M, N]⟩ .f32 0x00000000#32) (ix2 r c) = ∑ k : Fin K, A (ix2 r k) * B (ix2 k c) := by
  simp only [matmul]
  rw [Ideal.matmul_constant_zero_apply]
  exact sum_contr_rc d hlc hrc hln hrn hlb hrb (fun a b => A a * B b) r c

/-- A block product whose left operand is contracted over its rows, into the zero accumulator, at (r, c): the sum over
    k of A (k, r) · B (k, c). -/
theorem matmul_cc_apply {φ₁ φ₂ : FTy} (d : DotDims ⟨2, ![K, M]⟩ ⟨2, ![K, N]⟩ ⟨2, ![M, N]⟩)
    (hlc : d.lhsContracting = [0]) (hrc : d.rhsContracting = [0])
    (hln : d.lhsNonContracting = [1]) (hrn : d.rhsNonContracting = [1])
    (hlb : d.lhsBatch = []) (hrb : d.rhsBatch = []) (prec : Option ContractPrecision)
    (A : FVec Ideal ⟨2, ![K, M]⟩ φ₁) (B : FVec Ideal ⟨2, ![K, N]⟩ φ₂) (r : Fin M) (c : Fin N) :
    matmul d prec A B (constant ⟨2, ![M, N]⟩ .f32 0x00000000#32) (ix2 r c) = ∑ k : Fin K, A (ix2 k r) * B (ix2 k c) := by
  simp only [matmul]
  rw [Ideal.matmul_constant_zero_apply]
  exact sum_contr_cc d hlc hrc hln hrn hlb hrb (fun a b => A a * B b) r c

/-- The host's rows × columns product at (r, c): the same sum. -/
theorem dotGeneral_rc_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (A : FVec Ideal ⟨2, ![M, K]⟩ φ₁) (B : FVec Ideal ⟨2, ![K, N]⟩ φ₂) (r : Fin M) (c : Fin N) :
    Host.dotGeneral d prec A B (ix2 r c) = ∑ k : Fin K, A (ix2 r k) * B (ix2 k c) := by
  simp only [Host.dotGeneral]
  rw [Ideal.dotGeneral_apply]
  exact sum_contr_rc d hlc hrc hln hrn hlb hrb (fun a b => A a * B b) r c

end Cert.Lib

end
-- ==== Proof.Region0.lean ====
/-
  The first dense layer as one function of the arrays the region finds.
  Each of the ten grid points reads 10000 rows of the aggregated column a, the whole 1 × 64 weight row w and the
  whole 1 × 64 bias row b, and writes the 10000 × 64 block  silu (a · w + b); the ten blocks tile the 100000 × 64
  output, so the output array after the region holds, at (n, j), silu (a (n, 0) · w (0, j) + b (0, j)).
-/
import proofs.«419798_j51900384804999_3_alg».proof.Proof.Gen.KernelIdeal.Frame
import proofs.«419798_j51900384804999_3_alg».proof.Proof.Core
import proofs.«419798_j51900384804999_3_alg».proof.Proof.LibDotSum
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Idealize.ShloMosaic Idealize.ShloMosaic.TcCoe Idealize.ShloMosaic.ValueIdx Idealize.SL.Sem
open Cert.KernelIdeal Cert.KernelIdeal.Gen

/-- A column broadcast along the rows' entries: an [a, 1] array broadcast to [a, b] reads, at (p, c), the operand's row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The stored block at (p, q): silu of the block's column entry p times the weight q plus the bias q. -/
theorem payload_apply (x0 : Vec Ideal S10000x1 .f32) (x1 : Vec Ideal S1x64 .f32) (x2 : Vec Ideal S1x64 .f32)
    (p : Fin 10000) (q : Fin 64) :
    (k0_pay1 x0 x1 x2 : S10000x64.Idx → EReal) (ix2 p q)
      = Cert.Core.silu ((x0 : S10000x1.Idx → EReal) (ix2 p 0) * (x1 : S1x64.Idx → EReal) (ix2 0 q)
          + (x2 : S1x64.Idx → EReal) (ix2 0 q)) := by
  unfold k0_pay1 Cert.Core.silu
  simp only [shapeCast_self]
  show (broadcastTo S10000x64 x0 _ (ix2 p q) * broadcastTo S10000x64 x1 _ (ix2 p q) + broadcastTo S10000x64 x2 _ (ix2 p q))
      * Ideal.logistic (broadcastTo S10000x64 x0 _ (ix2 p q) * broadcastTo S10000x64 x1 _ (ix2 p q) + broadcastTo S10000x64 x2 _ (ix2 p q)) = _
  rw [broadcastTo_a1_ab_apply, broadcastTo_1b_ab_apply, broadcastTo_1b_ab_apply]

/-- The dense layer's value at row n and feature j. -/
def denseAt (a : S100000x1.Idx → EReal) (w b : S1x64.Idx → EReal) (n : Fin 100000) (j : Fin 64) : EReal :=
  Cert.Core.silu (a (ix2 n 0) * w (ix2 0 j) + b (ix2 0 j))

/-- The whole output array as one function of the column, the weight row and the bias row. -/
abbrev dense (a : S100000x1.Idx → EReal) (w b : S1x64.Idx → EReal) : S100000x64.Idx → EReal :=
  fun i => denseAt a w b (i 0) (i 1)

/-- silu of an affine term of three entries is the dense layer's value once the three entries are read where it reads. -/
theorem silu_entries_eq (a : S100000x1.Idx → EReal) (w b : S1x64.Idx → EReal) (i0 : S100000x1.Idx) (i1 i2 : S1x64.Idx)
    (n : Fin 100000) (j : Fin 64) (h0 : i0 = ix2 n 0) (h1 : i1 = ix2 0 j) (h2 : i2 = ix2 0 j) :
    Cert.Core.silu (a i0 * w i1 + b i2) = denseAt a w b n j := by
  subst h0 h1 h2; rfl

-- The TensorCore's buffer contents when the region is entered.
variable (V : (c : Dev nD) → (b : Ref sig .tc) → Buf (Elt Ideal) ((c : Thread nD τ).loc b))

theorem offsets_zero : (![0, 0] : Fin 2 → Nat) = fun _ => 0 := funext fun a => by fin_cases a <;> rfl

/-- The printed index maps over the grid: point t reads block row t of the column and writes block row t of the output;
    the weight and bias rows are their arrays' only block. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point t writes back is block t of the dense layer of the arrays the region finds. -/
theorem flushed_eq (c : Dev nD) (t : Fin cfg0.N) :
    (dat0 (F := Ideal) V c).flushed 3 t
      = ((cfg0.win 3).blk t).view.read (Elt Ideal) (dense (V c main_v41) (V c main_arg2) (V c main_v42)) := by
  show (cfg0.win 3).cut (grid0.coords t) ((dat0 V c).after 3 t) = _
  rw [after0_3]
  unfold out0_3
  rw [View.canon_unit_zero offsets_zero]
  simp only [View.ld_unit_zero (S := S10000x1) offsets_zero, View.ld_unit_zero (S := S1x64) offsets_zero]
  obtain ⟨e00, e01, e10, e11, e20, e21, e30, e31⟩ := block_indices t
  funext j
  obtain ⟨p, q, rfl⟩ : ∃ (p : Fin 10000) (q : Fin 64), j = ix2 p q := ⟨j 0, j 1, eq_ix2 j⟩
  show (k0_pay1 (iblk0 V c 0 t) (iblk0 V c 1 t) (iblk0 V c 2 t) : S10000x64.Idx → EReal) (ix2 p q)
    = dense (V c main_v41) (V c main_arg2) (V c main_v42) (((cfg0.win 3).blk t).view.emb (ix2 p q))
  refine (payload_apply _ _ _ p q).trans ?_
  refine silu_entries_eq (V c main_v41) (V c main_arg2) (V c main_v42)
    (((cfg0.win 0).blk t).view.emb (ix2 p 0)) (((cfg0.win 1).blk t).view.emb (ix2 0 q)) (((cfg0.win 2).blk t).view.emb (ix2 0 q))
    _ _ ?_ ?_ ?_
  · funext a; apply Fin.ext
    match a with
    | ⟨0, _⟩ =>
      show win0_0.index t (0 : Fin 2) * 10000 + 1 * p.val = win0_3.index t (0 : Fin 2) * 10000 + 1 * p.val
      omega
    | ⟨1, _⟩ =>
      show win0_0.index t (1 : Fin 2) * 1 + 1 * 0 = 0
      omega
  · funext a; apply Fin.ext
    match a with
    | ⟨0, _⟩ =>
      show win0_1.index t (0 : Fin 2) * 1 + 1 * 0 = 0
      omega
    | ⟨1, _⟩ =>
      show win0_1.index t (1 : Fin 2) * 64 + 1 * q.val = win0_3.index t (1 : Fin 2) * 64 + 1 * q.val
      omega
  · funext a; apply Fin.ext
    match a with
    | ⟨0, _⟩ =>
      show win0_2.index t (0 : Fin 2) * 1 + 1 * 0 = 0
      omega
    | ⟨1, _⟩ =>
      show win0_2.index t (1 : Fin 2) * 64 + 1 * q.val = win0_3.index t (1 : Fin 2) * 64 + 1 * q.val
      omega

/-- An index of the output is in point t's block iff each coordinate is in the block's range on its axis. -/
theorem mem_block (t : Fin cfg0.N) (i : S100000x64.Idx) :
    i ∈ ((cfg0.win 3).blk t).view.set ↔ ∀ a : Fin 2, win0_3.index t a * S10000x64.size a ≤ (i a).val
      ∧ (i a).val < win0_3.index t a * S10000x64.size a + S10000x64.size a := by
  show i ∈ ((View.whole main_v43).slice (win0_3.rect t)).set ↔ _
  rw [View.set_slice_whole, Rect.mem_set_unit]
  exact Iff.rfl

/-- The ten blocks tile the output: row r lies in the block of point r / 10000. -/
theorem covered (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  have hN : cfg0.N = 10 := N_0
  have ht : (i 0).val / 10000 < cfg0.N := by rw [hN]; omega
  obtain ⟨-, -, -, -, -, -, e30, e31⟩ := block_indices ⟨(i 0).val / 10000, ht⟩
  have e30' : win0_3.index ⟨(i 0).val / 10000, ht⟩ (0 : Fin 2) = (i 0).val / 10000 := e30
  refine ⟨⟨(i 0).val / 10000, ht⟩, flush0_3 _, ?_⟩
  rw [mem_block]
  intro a
  match a with
  | ⟨0, _⟩ =>
    show win0_3.index ⟨(i 0).val / 10000, ht⟩ (0 : Fin 2) * 10000 ≤ (i 0).val
      ∧ (i 0).val < win0_3.index ⟨(i 0).val / 10000, ht⟩ (0 : Fin 2) * 10000 + 10000
    omega
  | ⟨1, _⟩ =>
    show win0_3.index ⟨(i 0).val / 10000, ht⟩ (1 : Fin 2) * 64 ≤ (i 1).val
      ∧ (i 1).val < win0_3.index ⟨(i 0).val / 10000, ht⟩ (1 : Fin 2) * 64 + 64
    omega

/-- The output array after region 0 is the dense layer of the arrays the region finds. -/
theorem array_eq (c : Dev nD) :
    (dat0 (F := Ideal) V c).arrAt 3 cfg0.N = dense (V c main_v41) (V c main_arg2) (V c main_v42) :=
  (dat0 V c).arrAt_eq_of_cover 3 (dense (V c main_v41) (V c main_arg2) (V c main_v42)) (fun t _ => flushed_eq V c t) covered

/-- The output array after region 0, at (n, j). -/
theorem value (c : Dev nD) (n : Fin 100000) (j : Fin 64) :
    ((dat0 (F := Ideal) V c).arrAt 3 cfg0.N : S100000x64.Idx → EReal) (ix2 n j)
      = denseAt (V c main_v41) (V c main_arg2) (V c main_v42) n j :=
  congrFun (array_eq V c) (ix2 n j)

end Cert.KernelIdeal.Region0

end
-- ==== Proof.Region1.lean ====
/-
  The second dense layer and the two-layer head as one function of the arrays the region finds.
  Each of the ten grid points reads 10000 rows of the aggregated 64-wide table A and the whole weights and biases, and
  writes the 10000 × 1 block  silu (silu (A·W2 + b2)·W3 + b3)·W4 + b4; the ten blocks tile the 100000 × 1 output.
-/
import proofs.«419798_j51900384804999_3_alg».proof.Proof.Gen.KernelIdeal.Frame
import proofs.«419798_j51900384804999_3_alg».proof.Proof.Core
import proofs.«419798_j51900384804999_3_alg».proof.Proof.LibDotSum
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Idealize.ShloMosaic Idealize.ShloMosaic.TcCoe Idealize.ShloMosaic.ValueIdx Idealize.SL.Sem
open Cert.KernelIdeal Cert.KernelIdeal.Gen

/-! ## The block's arithmetic at an index -/

/-- A 1 × b row, cast to its own shape and broadcast over a rows, read at (p, c): the row's entry c. -/
theorem row_over_rows_apply {a b : ℕ} (v : (⟨2, ![1, b]⟩ : Shape).Idx → EReal)
    (h1 : (⟨2, ![1, b]⟩ : Shape).ShapeCasts ⟨2, ![1, b]⟩) (h2 : (⟨2, ![1, b]⟩ : Shape).Broadcasts ⟨2, ![a, b]⟩)
    (p : Fin a) (c : Fin b) :
    broadcastTo ⟨2, ![a, b]⟩ (shapeCast ⟨2, ![1, b]⟩ v h1) h2 (ix2 p c) = v (ix2 (0 : Fin 1) c) := by
  rw [shapeCast_self]
  exact broadcastTo_1b_ab_apply v h2 p c

/-- A dense layer before its activation, at (p, c): the row p of A against the column c of B, plus the bias entry c. -/
theorem dense_apply {M K N : ℕ} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (A : FVec Ideal ⟨2, ![M, K]⟩ .f32) (B : FVec Ideal ⟨2, ![K, N]⟩ .f32) (b : FVec Ideal ⟨2, ![1, N]⟩ .f32)
    (h1 : (⟨2, ![1, N]⟩ : Shape).ShapeCasts ⟨2, ![1, N]⟩) (h2 : (⟨2, ![1, N]⟩ : Shape).Broadcasts ⟨2, ![M, N]⟩)
    (p : Fin M) (c : Fin N) :
    addf (matmul d none A B (constant ⟨2, ![M, N]⟩ .f32 0x00000000#32)) (broadcastTo ⟨2, ![M, N]⟩ (shapeCast ⟨2, ![1, N]⟩ b h1) h2) (ix2 p c)
      = (∑ k : Fin K, A (ix2 p k) * B (ix2 k c)) + b (ix2 (0 : Fin 1) c) := by
  show matmul d none A B (constant ⟨2, ![M, N]⟩ .f32 0x00000000#32) (ix2 p c)
      + broadcastTo ⟨2, ![M, N]⟩ (shapeCast ⟨2, ![1, N]⟩ b h1) h2 (ix2 p c) = _
  rw [Cert.Lib.matmul_rc_apply d hlc hrc hln hrn hlb hrb, row_over_rows_apply]

/-- x · logistic x, entry by entry. -/
theorem silu_apply {s : Shape} (y : FVec Ideal s .f32) (i : s.Idx) :
    mulf y (logistic y) i = Cert.Core.silu (y i) := rfl

/-- The block the body stores, at (p, q): the two dense layers with their activations and the last dense layer. -/
theorem mlp_block_apply (x0 : FVec Ideal S10000x64 .f32) (x1 : FVec Ideal S64x64 .f32) (x2 : FVec Ideal S1x64 .f32)
    (x3 : FVec Ideal S64x64 .f32) (x4 : FVec Ideal S1x64 .f32) (x5 : FVec Ideal S64x1 .f32) (x6 : FVec Ideal S1x1 .f32)
    (p : Fin 10000) (q : Fin 1) :
    k1_pay1 (F := Ideal) x0 x1 x2 x3 x4 x5 x6 (ix2 p q)
      = Cert.Core.tail (fun k j => x3 (ix2 k j)) (fun k => x4 (ix2 0 k)) (fun k z => x5 (ix2 k z)) (fun z => x6 (ix2 0 z))
          (fun n j => Cert.Core.silu ((∑ k : Fin 64, x0 (ix2 n k) * x1 (ix2 k j)) + x2 (ix2 0 j))) p q := by
  unfold k1_pay1 Cert.Core.tail
  refine (dense_apply dot_S10000x64_S64x1_S10000x1_1_0_0_1_n_n rfl rfl rfl rfl rfl rfl _ x5 x6 _ _ p q).trans ?_
  refine congrArg (· + x6 (ix2 0 q)) (Finset.sum_congr rfl fun k _ => congrArg (· * x5 (ix2 k q)) ?_)
  refine (silu_apply _ (ix2 p k)).trans (congrArg Cert.Core.silu ?_)
  refine (dense_apply dot_S10000x64_S64x64_S10000x64_1_0_0_1_n_n rfl rfl rfl rfl rfl rfl _ x3 x4 _ _ p k).trans ?_
  refine congrArg (· + x4 (ix2 0 k)) (Finset.sum_congr rfl fun l _ => congrArg (· * x3 (ix2 l k)) ?_)
  refine (silu_apply _ (ix2 p l)).trans (congrArg Cert.Core.silu ?_)
  refine (dense_apply dot_S10000x64_S64x64_S10000x64_1_0_0_1_n_n rfl rfl rfl rfl rfl rfl _ x1 x2 _ _ p l).trans ?_
  rw [shapeCast_self]

/-! ## The region's output as one function of the arrays it finds -/

-- The TensorCore's buffer contents when the region is entered.
variable (V : (c : Dev nD) → (b : Ref sig .tc) → Buf (Elt Ideal) ((c : Thread nD τ).loc b))

/-- The two-layer head over the second dense layer, of the aggregated table A and the weights and biases, at row n and
    output column z. -/
def headAt (A : S100000x64.Idx → EReal) (W2 : S64x64.Idx → EReal) (b2 : S1x64.Idx → EReal) (W3 : S64x64.Idx → EReal)
    (b3 : S1x64.Idx → EReal) (W4 : S64x1.Idx → EReal) (b4 : S1x1.Idx → EReal) (n : Fin 100000) (z : Fin 1) : EReal :=
  Cert.Core.tail (fun k j => W3 (ix2 k j)) (fun k => b3 (ix2 0 k)) (fun k z => W4 (ix2 k z)) (fun z => b4 (ix2 0 z))
    (fun n j => Cert.Core.silu ((∑ k : Fin 64, A (ix2 n k) * W2 (ix2 k j)) + b2 (ix2 0 j))) n z

/-- The same at every index of the 100000 × 1 output array. -/
def headArr (A : S100000x64.Idx → EReal) (W2 : S64x64.Idx → EReal) (b2 : S1x64.Idx → EReal) (W3 : S64x64.Idx → EReal)
    (b3 : S1x64.Idx → EReal) (W4 : S64x1.Idx → EReal) (b4 : S1x1.Idx → EReal) : S100000x1.Idx → EReal :=
  fun i => headAt A W2 b2 W3 b3 W4 b4 (i 0) (i 1)

theorem offsets_zero : (![0, 0] : Fin 2 → Nat) = fun _ => 0 := funext fun a => by fin_cases a <;> rfl

/-- The block a point stores is the whole-array function on the block's rows: its row p is row o + p of the table, and
    the weights and biases are read whole. -/
theorem mlp_block_eq (x0 : FVec Ideal S10000x64 .f32) (x1 : FVec Ideal S64x64 .f32) (x2 : FVec Ideal S1x64 .f32)
    (x3 : FVec Ideal S64x64 .f32) (x4 : FVec Ideal S1x64 .f32) (x5 : FVec Ideal S64x1 .f32) (x6 : FVec Ideal S1x1 .f32)
    (A : S100000x64.Idx → EReal) (W2 : S64x64.Idx → EReal) (b2 : S1x64.Idx → EReal) (W3 : S64x64.Idx → EReal)
    (b3 : S1x64.Idx → EReal) (W4 : S64x1.Idx → EReal) (b4 : S1x1.Idx → EReal)
    (j : S10000x1.Idx) (i : S100000x1.Idx) (o : ℕ)
    (hi0 : (i 0).val = o + (j 0).val) (hi1 : (i 1).val = (j 1).val)
    (h0 : ∀ (p : Fin 10000) (k : Fin 64) (n : Fin 100000), n.val = o + p.val → x0 (ix2 p k) = A (ix2 n k))
    (h1 : x1 = W2) (h2 : x2 = b2) (h3 : x3 = W3) (h4 : x4 = b3) (h5 : x5 = W4) (h6 : x6 = b4) :
    k1_pay1 (F := Ideal) x0 x1 x2 x3 x4 x5 x6 j = headArr A W2 b2 W3 b3 W4 b4 i := by
  subst h1 h2 h3 h4 h5 h6
  obtain ⟨p, q, rfl⟩ : ∃ (p : Fin 10000) (q : Fin 1), j = ix2 p q := ⟨j 0, j 1, eq_ix2 j⟩
  obtain ⟨n, z, rfl⟩ : ∃ (n : Fin 100000) (z : Fin 1), i = ix2 n z := ⟨i 0, i 1, eq_ix2 i⟩
  have hn : n.val = o + p.val := hi0
  obtain rfl : z = q := Fin.ext hi1
  rw [mlp_block_apply]
  show _ = Cert.Core.tail (fun k j => x3 (ix2 k j)) (fun k => x4 (ix2 0 k)) (fun k z => x5 (ix2 k z)) (fun z => x6 (ix2 0 z))
    (fun (n : Fin 100000) j => Cert.Core.silu ((∑ k : Fin 64, A (ix2 n k) * x1 (ix2 k j)) + x2 (ix2 0 j))) n z
  unfold Cert.Core.tail
  simp only [h0 p _ n hn]

/-! ## The index maps, decided over the grid -/

/-- The table's block and the output's block move together down the rows, one block per point; every weight and bias
    window stays on its whole array. -/
theorem block_indices : ∀ t : Fin cfg1.N,
    win1_0.index t (0 : Fin 2) = win1_7.index t (0 : Fin 2) ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) ≤ 9 ∧ win1_7.index t (1 : Fin 2) = 0 :=
  (by decide +kernel : ∀ t : Fin grid1.N, _)

/-- Every one of the ten row blocks is some point's. -/
theorem block_onto : ∀ q0 : Fin 10, ∃ t : Fin cfg1.N, win1_7.index t = ![q0.val, 0] :=
  (by decide +kernel : ∀ q0 : Fin 10, ∃ t : Fin grid1.N, win1_7.index t = ![q0.val, 0])

/-! ## What a point reads: the weights and biases whole, the table by row blocks -/

/-- The second layer's weights are read whole at every point. -/
theorem w2_block (c : Dev nD) (t : Fin cfg1.N) : iblk1 (F := Ideal) V c 1 t = (V c main_arg4 : S64x64.Idx → EReal) := by
  obtain ⟨e00, e01, e10, e11, e20, e21, e30, e31, e40, e41, e50, e51, e60, e61, e70, e71⟩ := block_indices t
  funext y
  show (V c main_arg4 : S64x64.Idx → EReal) (((cfg1.win 1).blk t).view.emb y) = (V c main_arg4 : S64x64.Idx → EReal) y
  refine congrArg _ (funext fun a => Fin.ext ?_)
  match a with
  | ⟨0, _⟩ => show win1_1.index t (0 : Fin 2) * 64 + 1 * (y 0).val = (y 0).val; omega
  | ⟨1, _⟩ => show win1_1.index t (1 : Fin 2) * 64 + 1 * (y 1).val = (y 1).val; omega

/-- The second layer's bias is read whole at every point. -/
theorem b2_block (c : Dev nD) (t : Fin cfg1.N) : iblk1 (F := Ideal) V c 2 t = (V c main_v56 : S1x64.Idx → EReal) := by
  obtain ⟨e00, e01, e10, e11, e20, e21, e30, e31, e40, e41, e50, e51, e60, e61, e70, e71⟩ := block_indices t
  funext y
  show (V c main_v56 : S1x64.Idx → EReal) (((cfg1.win 2).blk t).view.emb y) = (V c main_v56 : S1x64.Idx → EReal) y
  refine congrArg _ (funext fun a => Fin.ext ?_)
  match a with
  | ⟨0, _⟩ => show win1_2.index t (0 : Fin 2) * 1 + 1 * (y 0).val = (y 0).val; omega
  | ⟨1, _⟩ => show win1_2.index t (1 : Fin 2) * 64 + 1 * (y 1).val = (y 1).val; omega

/-- The third layer's weights are read whole at every point. -/
theorem w3_block (c : Dev nD) (t : Fin cfg1.N) : iblk1 (F := Ideal) V c 3 t = (V c main_arg6 : S64x64.Idx → EReal) := by
  obtain ⟨e00, e01, e10, e11, e20, e21, e30, e31, e40, e41, e50, e51, e60, e61, e70, e71⟩ := block_indices t
  funext y
  show (V c main_arg6 : S64x64.Idx → EReal) (((cfg1.win 3).blk t).view.emb y) = (V c main_arg6 : S64x64.Idx → EReal) y
  refine congrArg _ (funext fun a => Fin.ext ?_)
  match a with
  | ⟨0, _⟩ => show win1_3.index t (0 : Fin 2) * 64 + 1 * (y 0).val = (y 0).val; omega
  | ⟨1, _⟩ => show win1_3.index t (1 : Fin 2) * 64 + 1 * (y 1).val = (y 1).val; omega

/-- The third layer's bias is read whole at every point. -/
theorem b3_block (c : Dev nD) (t : Fin cfg1.N) : iblk1 (F := Ideal) V c 4 t = (V c main_v57 : S1x64.Idx → EReal) := by
  obtain ⟨e00, e01, e10, e11, e20, e21, e30, e31, e40, e41, e50, e51, e60, e61, e70, e71⟩ := block_indices t
  funext y
  show (V c main_v57 : S1x64.Idx → EReal) (((cfg1.win 4).blk t).view.emb y) = (V c main_v57 : S1x64.Idx → EReal) y
  refine congrArg _ (funext fun a => Fin.ext ?_)
  match a with
  | ⟨0, _⟩ => show win1_4.index t (0 : Fin 2) * 1 + 1 * (y 0).val = (y 0).val; omega
  | ⟨1, _⟩ => show win1_4.index t (1 : Fin 2) * 64 + 1 * (y 1).val = (y 1).val; omega

/-- The last layer's weights are read whole at every point. -/
theorem w4_block (c : Dev nD) (t : Fin cfg1.N) : iblk1 (F := Ideal) V c 5 t = (V c main_arg8 : S64x1.Idx → EReal) := by
  obtain ⟨e00, e01, e10, e11, e20, e21, e30, e31, e40, e41, e50, e51, e60, e61, e70, e71⟩ := block_indices t
  funext y
  show (V c main_arg8 : S64x1.Idx → EReal) (((cfg1.win 5).blk t).view.emb y) = (V c main_arg8 : S64x1.Idx → EReal) y
  refine congrArg _ (funext fun a => Fin.ext ?_)
  match a with
  | ⟨0, _⟩ => show win1_5.index t (0 : Fin 2) * 64 + 1 * (y 0).val = (y 0).val; omega
  | ⟨1, _⟩ => show win1_5.index t (1 : Fin 2) * 1 + 1 * (y 1).val = (y 1).val; omega

/-- The last layer's bias is read whole at every point. -/
theorem b4_block (c : Dev nD) (t : Fin cfg1.N) : iblk1 (F := Ideal) V c 6 t = (V c main_v58 : S1x1.Idx → EReal) := by
  obtain ⟨e00, e01, e10, e11, e20, e21, e30, e31, e40, e41, e50, e51, e60, e61, e70, e71⟩ := block_indices t
  funext y
  show (V c main_v58 : S1x1.Idx → EReal) (((cfg1.win 6).blk t).view.emb y) = (V c main_v58 : S1x1.Idx → EReal) y
  refine congrArg _ (funext fun a => Fin.ext ?_)
  match a with
  | ⟨0, _⟩ => show win1_6.index t (0 : Fin 2) * 1 + 1 * (y 0).val = (y 0).val; omega
  | ⟨1, _⟩ => show win1_6.index t (1 : Fin 2) * 1 + 1 * (y 1).val = (y 1).val; omega

/-- Row p of the table's block at point t is row (the output's block index) · 10000 + p of the table. -/
theorem table_block (c : Dev nD) (t : Fin cfg1.N) (p : Fin 10000) (k : Fin 64) (n : Fin 100000)
    (hn : n.val = win1_7.index t (0 : Fin 2) * 10000 + p.val) :
    iblk1 (F := Ideal) V c 0 t (ix2 p k) = (V c main_v55 : S100000x64.Idx → EReal) (ix2 n k) := by
  obtain ⟨e00, e01, e10, e11, e20, e21, e30, e31, e40, e41, e50, e51, e60, e61, e70, e71⟩ := block_indices t
  show (V c main_v55 : S100000x64.Idx → EReal) (((cfg1.win 0).blk t).view.emb (ix2 p k)) = (V c main_v55 : S100000x64.Idx → EReal) (ix2 n k)
  refine congrArg _ (funext fun a => Fin.ext ?_)
  match a with
  | ⟨0, _⟩ => show win1_0.index t (0 : Fin 2) * 10000 + 1 * p.val = n.val; omega
  | ⟨1, _⟩ => show win1_0.index t (1 : Fin 2) * 64 + 1 * k.val = k.val; omega

/-! ## From the blocks to the array -/

/-- What point t writes back is block t of the whole-array function of the arrays the region finds. -/
theorem flushed_eq (c : Dev nD) (t : Fin cfg1.N) :
    (dat1 (F := Ideal) V c).flushed 7 t = ((cfg1.win 7).blk t).view.read (Elt Ideal)
      (headArr (V c main_v55) (V c main_arg4) (V c main_v56) (V c main_arg6) (V c main_v57) (V c main_arg8) (V c main_v58)) := by
  show (cfg1.win 7).cut (grid1.coords t) ((dat1 V c).after 7 t) = _
  rw [after1_7]
  unfold out1_7
  rw [View.canon_unit_zero offsets_zero]
  simp only [View.ld_unit_zero (S := S10000x64) offsets_zero, View.ld_unit_zero (S := S64x64) offsets_zero,
    View.ld_unit_zero (S := S1x64) offsets_zero, View.ld_unit_zero (S := S64x1) offsets_zero,
    View.ld_unit_zero (S := S1x1) offsets_zero]
  funext j
  refine mlp_block_eq _ _ _ _ _ _ _ (V c main_v55) (V c main_arg4) (V c main_v56) (V c main_arg6) (V c main_v57)
    (V c main_arg8) (V c main_v58) j (((cfg1.win 7).blk t).view.emb j) (win1_7.index t (0 : Fin 2) * 10000) ?_ ?_
    (fun p k n hn => table_block V c t p k n hn)
    (w2_block V c t) (b2_block V c t) (w3_block V c t) (b3_block V c t) (w4_block V c t) (b4_block V c t)
  · show win1_7.index t (0 : Fin 2) * 10000 + 1 * (j 0).val = win1_7.index t (0 : Fin 2) * 10000 + (j 0).val
    omega
  · obtain ⟨e00, e01, e10, e11, e20, e21, e30, e31, e40, e41, e50, e51, e60, e61, e70, e71⟩ := block_indices t
    show win1_7.index t (1 : Fin 2) * 1 + 1 * (j 1).val = (j 1).val
    omega

/-- An index of the output is in point t's block iff each coordinate is in the block's range on its axis. -/
theorem mem_block (t : Fin cfg1.N) (i : S100000x1.Idx) :
    i ∈ ((cfg1.win 7).blk t).view.set ↔ ∀ a : Fin 2, win1_7.index t a * S10000x1.size a ≤ (i a).val
      ∧ (i a).val < win1_7.index t a * S10000x1.size a + S10000x1.size a := by
  show i ∈ ((View.whole main_v59).slice (win1_7.rect t)).set ↔ _
  rw [View.set_slice_whole, Rect.mem_set_unit]
  exact Iff.rfl

/-- The ten blocks tile the output: row r is in the block of the point whose block index is r / 10000. -/
theorem blocks_cover (i : S100000x1.Idx) :
    ∃ t : Fin cfg1.N, (cfg1.win 7).flush t = true ∧ i ∈ ((cfg1.win 7).blk t).view.set := by
  have hi0 : (i 0).val < 100000 := (i 0).isLt
  have hi1 : (i 1).val < 1 := (i 1).isLt
  obtain ⟨t, ht⟩ := block_onto ⟨(i 0).val / 10000, by omega⟩
  have q0 : win1_7.index t (0 : Fin 2) = (i 0).val / 10000 := congrFun ht 0
  have q1 : win1_7.index t (1 : Fin 2) = 0 := congrFun ht 1
  refine ⟨t, flush1_7 t, ?_⟩
  rw [mem_block]
  intro a
  match a with
  | ⟨0, _⟩ => show win1_7.index t (0 : Fin 2) * 10000 ≤ (i 0).val ∧ (i 0).val < win1_7.index t (0 : Fin 2) * 10000 + 10000; omega
  | ⟨1, _⟩ => show win1_7.index t (1 : Fin 2) * 1 ≤ (i 1).val ∧ (i 1).val < win1_7.index t (1 : Fin 2) * 1 + 1; omega

/-- The output array after region 1, at (n, z). -/
theorem value (c : Dev nD) (n : Fin 100000) (z : Fin 1) :
    ((dat1 (F := Ideal) V c).arrAt 7 cfg1.N : S100000x1.Idx → EReal) (ix2 n z)
      = headAt (V c main_v55) (V c main_arg4) (V c main_v56) (V c main_arg6) (V c main_v57) (V c main_arg8) (V c main_v58) n z := by
  have h := (dat1 (F := Ideal) V c).arrAt_eq_of_cover 7
    (headArr (V c main_v55) (V c main_arg4) (V c main_v56) (V c main_arg6) (V c main_v57) (V c main_arg8) (V c main_v58))
    (fun t _ => flushed_eq V c t) blocks_cover
  exact congrFun h (ix2 n z)

end Cert.KernelIdeal.Region1

end
-- ==== Proof.LibRowOps.lean ====
/-
  Row gathers and row scatter-adds, read at an index.
  A gather of whole rows of an [N, C] table at E start indices (one index per result row, offset axis 1, the row axis
  collapsed) reads, at (e, j), the table at (the start index of e clamped into [0, N-1], j).
  A scatter-add of E update rows into an [N, C] operand (window axis 1, the row axis inserted) adds, at (n, j), the
  updates (e, j) of exactly those e whose index, read signed and NOT clamped, is n; an index outside [0, N) drops its row.
  Both are stated for any record with those axis lists and any width C, so that tables of different widths read through
  the same row functions `rowOf` and `landOf`.
-/
import Idealize.ShloMosaic.PureOps.Ideal
import Idealize.ShloMosaic.Lib.ValueIdx

noncomputable section

namespace Cert.Lib

open Idealize.ShloMosaic Idealize.ShloMosaic.ValueIdx

variable {N C E w : Nat}

/-- The table row that start index e names: read signed, clamped into [0, N-1]. -/
def rowOf (hN : 0 < N) (idx : IVec ⟨2, ![E, 1]⟩ w) (e : Fin E) : Fin N :=
  ⟨min (idx (ix2 e 0)).toInt.toNat (N - 1), by omega⟩

/-- The operand row that scatter index e lands in: read signed, none when outside [0, N). -/
def landOf (idx : IVec ⟨2, ![E, 1]⟩ w) (e : Fin E) : Option (Fin N) :=
  if h : 0 ≤ (idx (ix2 e 0)).toInt ∧ (idx (ix2 e 0)).toInt < N then some ⟨(idx (ix2 e 0)).toInt.toNat, by omega⟩ else none

/-- A row gather at (e, j). -/
theorem gather_rows_apply {α : Type} (hN : 0 < N) (d : GatherDims ⟨2, ![N, C]⟩ ⟨2, ![E, 1]⟩ ⟨2, ![E, C]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (hss : d.sliceSizes = ![1, C])
    (x : (⟨2, ![N, C]⟩ : Shape).Idx → α) (idx : IVec ⟨2, ![E, 1]⟩ w) (e : Fin E) (j : Fin C) :
    Host.gather d x idx (ix2 e j) = x (ix2 (rowOf hN idx e) j) := by
  unfold Host.gather
  congr 1
  funext a
  apply Fin.ext
  have hb : ∀ a, a ∉ d.operandBatchingDims := by intro a; rw [hob]; exact List.not_mem_nil
  have hsk : d.sKept = [1] := by
    show Shape.kept _ (d.collapsedSliceDims ++ d.operandBatchingDims) = [1]
    rw [hcoll, hob]; rfl
  have hbd : d.batchDims = [0] := by
    show Shape.kept _ d.offsetDims = [0]
    rw [hoff]; rfl
  have hsik : d.siKept = [0] := by
    show (List.finRange _).filter (fun b => b.val ≠ d.indexVectorDim) = [0]
    rw [hivd]; rfl
  have hlen : d.startIndexMap.length = 1 := by rw [hsim]; rfl
  have hsi : ∀ c : Fin d.startIndexMap.length, d.siIdx (ix2 e j) c = ix2 e 0 := by
    intro c
    have hc : c.val = 0 := by have := c.isLt; omega
    funext b
    apply Fin.ext
    match b with
    | ⟨0, hb0⟩ =>
      unfold GatherDims.siIdx
      rw [dif_neg (by rw [hivd]; exact Nat.zero_ne_one)]
      unfold GatherDims.siCoord
      simp only [Fin.val_cast]
      have key : ∀ X : Fin 2, X = 0 → ((ix2 e j) X).val = e.val := by intro X hX; subst hX; rfl
      apply key
      exact (List.getElem_of_eq hbd _).trans (List.getElem_singleton _)
    | ⟨1, hb1⟩ =>
      unfold GatherDims.siIdx
      rw [dif_pos (by rw [hivd])]
      exact hc
  match a with
  | ⟨0, h0⟩ =>
    have hm : (⟨0, h0⟩ : Fin 2) ∈ d.startIndexMap := by rw [hsim]; exact List.mem_singleton.mpr rfl
    have hk : (⟨0, h0⟩ : Fin 2) ∉ d.sKept := by
      rw [hsk]; intro h; exact absurd (congrArg Fin.val (List.mem_singleton.mp h)) Nat.zero_ne_one
    have hsl : d.sliceSizes ⟨0, h0⟩ = 1 := by rw [hss]; rfl
    show d.start (ix2 e j) idx ⟨0, h0⟩ + d.batchCoord (ix2 e j) ⟨0, h0⟩ + d.offCoord (ix2 e j) ⟨0, h0⟩ = (rowOf hN idx e).val
    rw [GatherDims.batchCoord_eq_zero _ _ _ (hb _), GatherDims.offCoord_eq_zero _ _ _ hk]
    unfold GatherDims.start
    rw [dif_pos hm, hsi, hsl]
    rfl
  | ⟨1, h1⟩ =>
    have hm : (⟨1, h1⟩ : Fin 2) ∉ d.startIndexMap := by
      rw [hsim]; intro h; exact absurd (congrArg Fin.val (List.mem_singleton.mp h)) Nat.one_ne_zero
    have hk : (⟨1, h1⟩ : Fin 2) ∈ d.sKept := by rw [hsk]; exact List.mem_singleton.mpr rfl
    show d.start (ix2 e j) idx ⟨1, h1⟩ + d.batchCoord (ix2 e j) ⟨1, h1⟩ + d.offCoord (ix2 e j) ⟨1, h1⟩ = j.val
    rw [GatherDims.batchCoord_eq_zero _ _ _ (hb _)]
    unfold GatherDims.start GatherDims.offCoord
    rw [dif_neg hm, dif_pos hk]
    simp only [Nat.zero_add, Nat.add_zero]
    have key : ∀ (X : Fin 2), X = 1 → ((ix2 e j) X).val = j.val := by intro X hX; subst hX; rfl
    apply key
    exact (List.getElem_of_eq hoff _).trans (List.getElem_singleton _)

/-- Where update (e, j') of a row scatter lands: on the row axis the start is the signed index of e and the window
    coordinate is 0 (that axis is inserted); on the column axis the start is 0 (the index map does not name it) and the
    window coordinate is j', always inside [0, C). So the update lands at (the row e lands in, j'), or nowhere. -/
private theorem resultIdx?_rows (d : ScatterDims ⟨2, ![N, C]⟩ ⟨2, ![E, 1]⟩ ⟨2, ![E, C]⟩)
    (hupd : d.updateWindowDims = [1]) (hins : d.insertedWindowDims = [0]) (hsd : d.scatterDimsToOperandDims = [0])
    (hivd : d.indexVectorDim = 1) (idx : IVec ⟨2, ![E, 1]⟩ w) (e : Fin E) (j' : Fin C) :
    d.resultIdx? (ix2 e j') idx = (landOf (N := N) idx e).map (fun n => ix2 n j') := by
  have hsk : d.sKept = [1] := by
    show Shape.kept _ d.insertedWindowDims = [1]
    rw [hins]; rfl
  have hus : d.uScatter = [0] := by
    show Shape.kept _ d.updateWindowDims = [0]
    rw [hupd]; rfl
  have hsik : d.siKept = [0] := by
    show (List.finRange _).filter (fun b => b.val ≠ d.indexVectorDim) = [0]
    rw [hivd]; rfl
  have hlen : d.scatterDimsToOperandDims.length = 1 := by rw [hsd]; rfl
  have hsi : ∀ c : Fin d.scatterDimsToOperandDims.length, d.siIdx (ix2 e j') c = ix2 e 0 := by
    intro c
    have hc : c.val = 0 := by have := c.isLt; omega
    funext b
    apply Fin.ext
    match b with
    | ⟨0, hb0⟩ =>
      unfold ScatterDims.siIdx
      rw [dif_neg (by rw [hivd]; exact Nat.zero_ne_one)]
      unfold ScatterDims.siCoord
      simp only [Fin.val_cast]
      have key : ∀ X : Fin 2, X = 0 → ((ix2 e j') X).val = e.val := by intro X hX; subst hX; rfl
      apply key
      exact (List.getElem_of_eq hus _).trans (List.getElem_singleton _)
    | ⟨1, hb1⟩ =>
      unfold ScatterDims.siIdx
      rw [dif_pos (by rw [hivd])]
      exact hc
  -- the start and the window coordinate on each axis
  have hs0 : d.start (ix2 e j') idx (0 : Fin 2) = (idx (ix2 e 0)).toInt := by
    have hm : (0 : Fin 2) ∈ d.scatterDimsToOperandDims := by rw [hsd]; exact List.mem_singleton.mpr rfl
    unfold ScatterDims.start
    rw [dif_pos hm, hsi]
  have hs1 : d.start (ix2 e j') idx (1 : Fin 2) = 0 := by
    have hm : (1 : Fin 2) ∉ d.scatterDimsToOperandDims := by
      rw [hsd]; intro h; exact absurd (congrArg Fin.val (List.mem_singleton.mp h)) Nat.one_ne_zero
    unfold ScatterDims.start
    rw [dif_neg hm]
  have hw0 : d.window (ix2 e j') (0 : Fin 2) = 0 := by
    have hk : (0 : Fin 2) ∉ d.sKept := by
      rw [hsk]; intro h; exact absurd (congrArg Fin.val (List.mem_singleton.mp h)) Nat.zero_ne_one
    unfold ScatterDims.window
    rw [dif_neg hk]
  have hw1 : d.window (ix2 e j') (1 : Fin 2) = j'.val := by
    have hk : (1 : Fin 2) ∈ d.sKept := by rw [hsk]; exact List.mem_singleton.mpr rfl
    unfold ScatterDims.window
    rw [dif_pos hk]
    have key : ∀ (X : Fin 2), X = 1 → ((ix2 e j') X).val = j'.val := by intro X hX; subst hX; rfl
    apply key
    exact (List.getElem_of_eq hupd _).trans (List.getElem_singleton _)
  have hcond : (∀ a : Fin 2, 0 ≤ d.start (ix2 e j') idx a + ((d.window (ix2 e j') a : Nat) : Int) ∧
      d.start (ix2 e j') idx a + ((d.window (ix2 e j') a : Nat) : Int) < (((⟨2, ![N, C]⟩ : Shape).size a : Nat) : Int))
      ↔ (0 ≤ (idx (ix2 e 0)).toInt ∧ (idx (ix2 e 0)).toInt < (N : Int)) := by
    constructor
    · intro h
      have h0 := h 0
      rw [hs0, hw0] at h0
      have hN : (((⟨2, ![N, C]⟩ : Shape).size (0 : Fin 2) : Nat) : Int) = (N : Int) := rfl
      rw [hN] at h0
      omega
    · intro h a
      match a with
      | ⟨0, _⟩ =>
        show 0 ≤ d.start (ix2 e j') idx (0 : Fin 2) + ((d.window (ix2 e j') (0 : Fin 2) : Nat) : Int) ∧
          d.start (ix2 e j') idx (0 : Fin 2) + ((d.window (ix2 e j') (0 : Fin 2) : Nat) : Int) < (N : Int)
        rw [hs0, hw0]; omega
      | ⟨1, _⟩ =>
        show 0 ≤ d.start (ix2 e j') idx (1 : Fin 2) + ((d.window (ix2 e j') (1 : Fin 2) : Nat) : Int) ∧
          d.start (ix2 e j') idx (1 : Fin 2) + ((d.window (ix2 e j') (1 : Fin 2) : Nat) : Int) < (C : Int)
        rw [hs1, hw1]
        have := j'.isLt
        omega
  unfold ScatterDims.resultIdx? landOf
  by_cases hv : 0 ≤ (idx (ix2 e 0)).toInt ∧ (idx (ix2 e 0)).toInt < (N : Int)
  · rw [dif_pos (hcond.2 hv), dif_pos hv, Option.map_some]
    congr 1
    funext a
    apply Fin.ext
    match a with
    | ⟨0, _⟩ =>
      show (d.start (ix2 e j') idx (0 : Fin 2) + ((d.window (ix2 e j') (0 : Fin 2) : Nat) : Int)).toNat = (idx (ix2 e 0)).toInt.toNat
      rw [hs0, hw0]; simp
    | ⟨1, _⟩ =>
      show (d.start (ix2 e j') idx (1 : Fin 2) + ((d.window (ix2 e j') (1 : Fin 2) : Nat) : Int)).toNat = j'.val
      rw [hs1, hw1]; simp
  · rw [dif_neg (fun h => hv (hcond.1 h)), dif_neg hv]
    rfl

/-- A row scatter-add at (n, j), at the ideal instance. -/
theorem scatterAdd_rows_apply {φ : FTy} (d : ScatterDims ⟨2, ![N, C]⟩ ⟨2, ![E, 1]⟩ ⟨2, ![E, C]⟩)
    (hupd : d.updateWindowDims = [1]) (hins : d.insertedWindowDims = [0]) (hsd : d.scatterDimsToOperandDims = [0])
    (hivd : d.indexVectorDim = 1)
    (x : FVec Ideal ⟨2, ![N, C]⟩ φ) (idx : IVec ⟨2, ![E, 1]⟩ w) (u : FVec Ideal ⟨2, ![E, C]⟩ φ) (n : Fin N) (j : Fin C) :
    Host.scatterAdd d x idx u (ix2 n j)
      = x (ix2 n j) + ∑ e ∈ Finset.univ.filter (fun e : Fin E => landOf (N := N) idx e = some n), u (ix2 e j) := by
  -- an update (e, j') lands at (n, j) exactly when e lands in row n and j' = j
  have hiff : ∀ (e : Fin E) (j' : Fin C),
      d.resultIdx? (ix2 e j') idx = some (ix2 n j) ↔ (landOf (N := N) idx e = some n ∧ j' = j) := by
    intro e j'
    rw [resultIdx?_rows d hupd hins hsd hivd idx e j', Option.map_eq_some_iff]
    constructor
    · rintro ⟨m, hm, hmn⟩
      have h0 : m = n := congrFun hmn (0 : Fin 2)
      have h1 : j' = j := congrFun hmn (1 : Fin 2)
      exact ⟨h0 ▸ hm, h1⟩
    · rintro ⟨hm, rfl⟩
      exact ⟨n, hm, rfl⟩
  show x (ix2 n j) + ∑ jj ∈ Finset.univ.filter (fun jj => d.resultIdx? jj idx = some (ix2 n j)), u jj = _
  congr 1
  rw [Finset.sum_filter, Finset.sum_filter, sum_idx2]
  refine Finset.sum_congr rfl (fun e _ => ?_)
  simp only [hiff]
  by_cases hl : landOf (N := N) idx e = some n
  · simp only [hl, true_and, if_true]
    rw [Finset.sum_ite_eq', if_pos (Finset.mem_univ _)]
  · simp only [hl, false_and, if_false]
    exact Finset.sum_const_zero

end Cert.Lib

end
-- ==== Proof.Agg.lean ====
/-
  A graph layer's neighbour sum, read at an index.
  Scatter-adding, into a zero table, the gathered source rows of a feature table T scaled by a per-edge weight is, at
  node n and feature j, the sum over the edges landing at n of T (source row of e, j) times the weight of e.
-/
import proofs.«419798_j51900384804999_3_alg».proof.Proof.Core
import proofs.«419798_j51900384804999_3_alg».proof.Proof.LibRowOps
import Idealize.ShloMosaic.PureOps.Ideal
import Idealize.ShloMosaic.Lib.ValueIdx

noncomputable section

namespace Cert.Lib

open Idealize.ShloMosaic Idealize.ShloMosaic.ValueIdx

variable {N C E w : Nat}

/-- The neighbour sum at (n, j). The weight table nb holds the weight of edge e in every column of row e, and the
    operand z is zero everywhere. -/
theorem agg_read {φ : FTy} (hN : 0 < N)
    (sc : ScatterDims ⟨2, ![N, C]⟩ ⟨2, ![E, 1]⟩ ⟨2, ![E, C]⟩)
    (hupd : sc.updateWindowDims = [1]) (hins : sc.insertedWindowDims = [0]) (hsd : sc.scatterDimsToOperandDims = [0])
    (hivd : sc.indexVectorDim = 1)
    (g : GatherDims ⟨2, ![N, C]⟩ ⟨2, ![E, 1]⟩ ⟨2, ![E, C]⟩)
    (hoff : g.offsetDims = [1]) (hcoll : g.collapsedSliceDims = [0]) (hob : g.operandBatchingDims = [])
    (hsb : g.startIndicesBatchingDims = []) (hsim : g.startIndexMap = [0]) (hgivd : g.indexVectorDim = 1)
    (hss : g.sliceSizes = ![1, C])
    (z T : FVec Ideal ⟨2, ![N, C]⟩ φ) (D S : IVec ⟨2, ![E, 1]⟩ w) (nb : FVec Ideal ⟨2, ![E, C]⟩ φ) (nrm : Fin E → EReal)
    (hz : ∀ i, (z i : EReal) = 0) (hnb : ∀ e j, (nb (ix2 e j) : EReal) = nrm e) (n : Fin N) (j : Fin C) :
    (Host.scatterAdd sc z D (mulf (Host.gather g T S) nb) (ix2 n j) : EReal)
      = Cert.Core.agg (landOf (N := N) D) (rowOf hN S) nrm (fun n j => (T (ix2 n j) : EReal)) n j := by
  -- the scatter-add at (n, j): the zero operand plus the updates of the edges landing at n
  rw [scatterAdd_rows_apply sc hupd hins hsd hivd z D _ n j, hz, zero_add]
  unfold Cert.Core.agg
  refine Finset.sum_congr rfl (fun e _ => ?_)
  -- update (e, j) is the gathered source row's entry times the edge's weight
  show (Host.gather g T S (ix2 e j) : EReal) * nb (ix2 e j) = _
  rw [gather_rows_apply hN g hoff hcoll hob hsb hsim hgivd hss T S e j, hnb]

end Cert.Lib

end
-- ==== Proof.KValue.lean ====
/-
  The kernel program's result, read at an index.
  The buffer contents are followed through the program: the host operations before the first region build the edge lists,
  the edge weights and the aggregated input column; the first region writes the first hidden layer; the host operations
  between the regions aggregate it; the second region writes the result. Each aggregation is the neighbour sum over the
  same edge lists and weights, so the result is the network that aggregates first and projects afterwards.
-/
import proofs.«419798_j51900384804999_3_alg».proof.Proof.Gen.KernelIdeal.Frame
import proofs.«419798_j51900384804999_3_alg».proof.Proof.KSpec
import proofs.«419798_j51900384804999_3_alg».proof.Proof.Region0
import proofs.«419798_j51900384804999_3_alg».proof.Proof.Region1
import proofs.«419798_j51900384804999_3_alg».proof.Proof.Core
import proofs.«419798_j51900384804999_3_alg».proof.Proof.LibRowOps
import proofs.«419798_j51900384804999_3_alg».proof.Proof.Agg
import Idealize.ShloMosaic.PureOps.Ideal
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value

set_option maxRecDepth 16384

noncomputable section

namespace Cert.KernelIdeal.KValue

open Idealize.ShloMosaic Idealize.ShloMosaic.TcCoe Idealize.ShloMosaic.Tactic Idealize.SL.Sem Idealize.ShloMosaic.StableHlo
open Idealize.ShloMosaic.ValueIdx
open Cert.KernelIdeal Cert.KernelIdeal.Gen Cert.KernelIdeal.Spec

section Chain

variable {F : FTy → Type} [FloatOps F]
variable (m : (ℓ : Loc nD τ sig) → Buf (Elt F) ℓ) (ρ : Dev nD → PrngReg) (c : Dev nD)

/-! ## On entry to the first region -/

/-- The aggregated input column: the scatter-add, into zeros, of the gathered input rows times the edge weights. -/
theorem W3_v41 : W3 m ρ c (Proc.devRef .tc main_v41)
    = Host.scatterAdd scatter_S100000x1_S1700000x1_S1700000x1_1_0_0_1
        (broadcastInDim S100000x1 ![] bcast_S_S100000x1 (constant S_ .f32 0x00000000#32))
        (colI (F := F) (dstIx (F := F) (m ((c : Thread nD τ).loc main_arg1))))
        (mulf (Host.gather gather_S100000x1_S1700000x1_S1700000x1_1_0_n_n_0_1_11 (m ((c : Thread nD τ).loc main_arg0))
            (colI (F := F) (wrapIx (F := F) (srcIx (F := F) (m ((c : Thread nD τ).loc main_arg1))))))
          (broadcastInDim S1700000x1 ![0] bcast_S1700000_S1700000x1_0 (normV (F := F) (m ((c : Thread nD τ).loc main_arg1))))) := by
  unfold W3 W2 W1
  after_results_simp
  rfl

theorem W3_v42 : W3 m ρ c (Proc.devRef .tc main_v42) = shapeCast S1x64 (m ((c : Thread nD τ).loc main_arg3)) shapeCasts_S64_S1x64 := by
  unfold W3 W2 W1
  after_results_simp
  rfl

theorem W3_v3 : W3 m ρ c (Proc.devRef .tc main_v3) = srcIx (F := F) (m ((c : Thread nD τ).loc main_arg1)) := by
  unfold W3 W2 W1
  after_results_simp
  rfl

theorem W3_v6 : W3 m ρ c (Proc.devRef .tc main_v6) = dstIx (F := F) (m ((c : Thread nD τ).loc main_arg1)) := by
  unfold W3 W2 W1
  after_results_simp
  rfl

theorem W3_v30 : W3 m ρ c (Proc.devRef .tc main_v30)
    = broadcastInDim S1700000x1 ![0] bcast_S1700000_S1700000x1_0 (normV (F := F) (m ((c : Thread nD τ).loc main_arg1))) := by
  unfold W3 W2 W1
  after_results_simp
  rfl

theorem W3_arg2 : W3 m ρ c (Proc.devRef .tc main_arg2) = m ((c : Thread nD τ).loc main_arg2) := by
  unfold W3 W2 W1
  after_results_simp
theorem W3_arg4 : W3 m ρ c (Proc.devRef .tc main_arg4) = m ((c : Thread nD τ).loc main_arg4) := by
  unfold W3 W2 W1
  after_results_simp
theorem W3_arg5 : W3 m ρ c (Proc.devRef .tc main_arg5) = m ((c : Thread nD τ).loc main_arg5) := by
  unfold W3 W2 W1
  after_results_simp
theorem W3_arg6 : W3 m ρ c (Proc.devRef .tc main_arg6) = m ((c : Thread nD τ).loc main_arg6) := by
  unfold W3 W2 W1
  after_results_simp
theorem W3_arg7 : W3 m ρ c (Proc.devRef .tc main_arg7) = m ((c : Thread nD τ).loc main_arg7) := by
  unfold W3 W2 W1
  after_results_simp
theorem W3_arg8 : W3 m ρ c (Proc.devRef .tc main_arg8) = m ((c : Thread nD τ).loc main_arg8) := by
  unfold W3 W2 W1
  after_results_simp
theorem W3_arg9 : W3 m ρ c (Proc.devRef .tc main_arg9) = m ((c : Thread nD τ).loc main_arg9) := by
  unfold W3 W2 W1
  after_results_simp

/-! ## On exit from the first region: its output holds what the region wrote, every other buffer is as on entry -/

theorem W4_v43 : W4 m ρ c (Proc.devRef .tc main_v43) = (dat0 (V3 m ρ) c).arrAt 3 cfg0.N := W4_arr m ρ c 3

/-! ## On entry to the second region -/

theorem W5_v55 : W5 m ρ c (Proc.devRef .tc main_v55)
    = Host.scatterAdd scatter_S100000x64_S1700000x1_S1700000x64_1_0_0_1
        (broadcastInDim S100000x64 ![] bcast_S_S100000x64 (constant S_ .f32 0x00000000#32))
        (colI (F := F) (dstIx (F := F) (m ((c : Thread nD τ).loc main_arg1))))
        (mulf (Host.gather gather_S100000x64_S1700000x1_S1700000x64_1_0_n_n_0_1_164 (W4 m ρ c (Proc.devRef .tc main_v43))
            (colI (F := F) (wrapIx (F := F) (srcIx (F := F) (m ((c : Thread nD τ).loc main_arg1))))))
          (broadcastInDim S1700000x64 ![0, 1] bcast_S1700000x1_S1700000x64_0_1
            (broadcastInDim S1700000x1 ![0] bcast_S1700000_S1700000x1_0 (normV (F := F) (m ((c : Thread nD τ).loc main_arg1)))))) := by
  have e3 : W4 m ρ c (Proc.devRef .tc main_v3) = srcIx (F := F) (m ((c : Thread nD τ).loc main_arg1)) := (W4_of_ne m ρ c main_v3 (by decide)).trans (W3_v3 m ρ c)
  have e6 : W4 m ρ c (Proc.devRef .tc main_v6) = dstIx (F := F) (m ((c : Thread nD τ).loc main_arg1)) := (W4_of_ne m ρ c main_v6 (by decide)).trans (W3_v6 m ρ c)
  have e30 : W4 m ρ c (Proc.devRef .tc main_v30) = broadcastInDim S1700000x1 ![0] bcast_S1700000_S1700000x1_0 (normV (F := F) (m ((c : Thread nD τ).loc main_arg1))) :=
    (W4_of_ne m ρ c main_v30 (by decide)).trans (W3_v30 m ρ c)
  unfold W5
  after_results_simp
  rw [e3, e6, e30]
  rfl

theorem W5_v56 : W5 m ρ c (Proc.devRef .tc main_v56) = shapeCast S1x64 (m ((c : Thread nD τ).loc main_arg5)) shapeCasts_S64_S1x64 := by
  have e : W4 m ρ c (Proc.devRef .tc main_arg5) = m ((c : Thread nD τ).loc main_arg5) := (W4_of_ne m ρ c main_arg5 (by decide)).trans (W3_arg5 m ρ c)
  unfold W5
  after_results_simp
  rw [e]
  rfl
theorem W5_v57 : W5 m ρ c (Proc.devRef .tc main_v57) = shapeCast S1x64 (m ((c : Thread nD τ).loc main_arg7)) shapeCasts_S64_S1x64 := by
  have e : W4 m ρ c (Proc.devRef .tc main_arg7) = m ((c : Thread nD τ).loc main_arg7) := (W4_of_ne m ρ c main_arg7 (by decide)).trans (W3_arg7 m ρ c)
  unfold W5
  after_results_simp
  rw [e]
  rfl
theorem W5_v58 : W5 m ρ c (Proc.devRef .tc main_v58) = shapeCast S1x1 (m ((c : Thread nD τ).loc main_arg9)) shapeCasts_S1_S1x1 := by
  have e : W4 m ρ c (Proc.devRef .tc main_arg9) = m ((c : Thread nD τ).loc main_arg9) := (W4_of_ne m ρ c main_arg9 (by decide)).trans (W3_arg9 m ρ c)
  unfold W5
  after_results_simp
  rw [e]
  rfl
theorem W5_arg4 : W5 m ρ c (Proc.devRef .tc main_arg4) = m ((c : Thread nD τ).loc main_arg4) := by
  have e : W4 m ρ c (Proc.devRef .tc main_arg4) = m ((c : Thread nD τ).loc main_arg4) := (W4_of_ne m ρ c main_arg4 (by decide)).trans (W3_arg4 m ρ c)
  unfold W5
  after_results_simp
  exact e
theorem W5_arg6 : W5 m ρ c (Proc.devRef .tc main_arg6) = m ((c : Thread nD τ).loc main_arg6) := by
  have e : W4 m ρ c (Proc.devRef .tc main_arg6) = m ((c : Thread nD τ).loc main_arg6) := (W4_of_ne m ρ c main_arg6 (by decide)).trans (W3_arg6 m ρ c)
  unfold W5
  after_results_simp
  exact e
theorem W5_arg8 : W5 m ρ c (Proc.devRef .tc main_arg8) = m ((c : Thread nD τ).loc main_arg8) := by
  have e : W4 m ρ c (Proc.devRef .tc main_arg8) = m ((c : Thread nD τ).loc main_arg8) := (W4_of_ne m ρ c main_arg8 (by decide)).trans (W3_arg8 m ρ c)
  unfold W5
  after_results_simp
  exact e

/-! ## On exit from the second region -/

theorem W6_v59 : W6 m ρ c (Proc.devRef .tc main_v59) = (dat1 (V5 m ρ) c).arrAt 7 cfg1.N := W6_arr m ρ c 7

end Chain

section Value

variable (m : (ℓ : Loc nD τ sig) → Buf (Elt Ideal) ℓ) (ρ : Dev nD → PrngReg) (c : Dev nD)

/-- The row each edge lands in, the source row each edge reads, and each edge's weight, as the program computes them
    from its edge index. -/
abbrev landK : Fin 1700000 → Option (Fin 100000) :=
  Cert.Lib.landOf (N := 100000) (colI (F := Ideal) (dstIx (F := Ideal) (m ((c : Thread nD τ).loc main_arg1))))
abbrev rowK : Fin 1700000 → Fin 100000 :=
  Cert.Lib.rowOf (N := 100000) (by decide) (colI (F := Ideal) (wrapIx (F := Ideal) (srcIx (F := Ideal) (m ((c : Thread nD τ).loc main_arg1)))))
abbrev nrmK : Fin 1700000 → EReal := fun e => (normV (F := Ideal) (m ((c : Thread nD τ).loc main_arg1)) (ix1 e) : EReal)

/-- The argument arrays by coordinates. -/
abbrev xK : Fin 100000 → Fin 1 → EReal := fun n k => (m ((c : Thread nD τ).loc main_arg0) : S100000x1.Idx → EReal) (ix2 n k)
abbrev W1K : Fin 1 → Fin 64 → EReal := fun k j => (m ((c : Thread nD τ).loc main_arg2) : S1x64.Idx → EReal) (ix2 k j)
abbrev b1K : Fin 64 → EReal := fun j => (m ((c : Thread nD τ).loc main_arg3) : S64.Idx → EReal) (ix1 j)
abbrev W2K : Fin 64 → Fin 64 → EReal := fun k j => (m ((c : Thread nD τ).loc main_arg4) : S64x64.Idx → EReal) (ix2 k j)
abbrev b2K : Fin 64 → EReal := fun j => (m ((c : Thread nD τ).loc main_arg5) : S64.Idx → EReal) (ix1 j)
abbrev W3K : Fin 64 → Fin 64 → EReal := fun k j => (m ((c : Thread nD τ).loc main_arg6) : S64x64.Idx → EReal) (ix2 k j)
abbrev b3K : Fin 64 → EReal := fun j => (m ((c : Thread nD τ).loc main_arg7) : S64.Idx → EReal) (ix1 j)
abbrev W4K : Fin 64 → Fin 1 → EReal := fun k z => (m ((c : Thread nD τ).loc main_arg8) : S64x1.Idx → EReal) (ix2 k z)
abbrev b4K : Fin 1 → EReal := fun z => (m ((c : Thread nD τ).loc main_arg9) : S1.Idx → EReal) (ix1 z)

/-- A zero splat reads 0. -/
theorem zeros_apply {T : Shape} (h : (⟨0, ![]⟩ : Shape).BroadcastsInDim T ![]) (i : T.Idx) :
    (broadcastInDim T ![] h (constant (F := Ideal) ⟨0, ![]⟩ .f32 0x00000000#32) i : EReal) = 0 := by
  rw [broadcastInDim_scalar_apply]
  show Ideal.ofBits .f32 0x00000000#32 = 0
  exact Ideal.ofBits_zero_f32

/-- A vector laid out as a one-column table reads, at (e, z), its entry e. -/
theorem col_apply {α : Type} {n : Nat} (h : (⟨1, ![n]⟩ : Shape).BroadcastsInDim ⟨2, ![n, 1]⟩ ![0])
    (v : (⟨1, ![n]⟩ : Shape).Idx → α) (e : Fin n) (z : Fin 1) :
    broadcastInDim ⟨2, ![n, 1]⟩ ![0] h v (ix2 e z) = v (ix1 e) := by
  refine broadcastInDim_apply _ _ _ _ _ fun a => ?_
  match a with
  | ⟨0, _⟩ =>
    split
    · rename_i h1; have hn : n = 1 := h1; have := e.isLt; show e.val = 0; omega
    · rfl

/-- A one-column table spread over C columns reads, at (e, j), its entry (e, 0). -/
theorem spread_apply {α : Type} {n C : Nat} (h : (⟨2, ![n, 1]⟩ : Shape).BroadcastsInDim ⟨2, ![n, C]⟩ ![0, 1])
    (v : (⟨2, ![n, 1]⟩ : Shape).Idx → α) (e : Fin n) (j : Fin C) :
    broadcastInDim ⟨2, ![n, C]⟩ ![0, 1] h v (ix2 e j) = v (ix2 e 0) := by
  refine broadcastInDim_apply _ _ _ _ _ fun a => ?_
  match a with
  | ⟨0, _⟩ =>
    split
    · rename_i h1; have hn : n = 1 := h1; have := e.isLt; show e.val = 0; omega
    · rfl
  | ⟨1, _⟩ =>
    split
    · rfl
    · rename_i h1; exact absurd rfl h1

/-- The aggregated input column at (n, 0). -/
theorem agg1_apply (n : Fin 100000) :
    (W3 m ρ c (Proc.devRef .tc main_v41) : S100000x1.Idx → EReal) (ix2 n 0)
      = Cert.Core.agg (landK m c) (rowK m c) (nrmK m c) (xK m c) n 0 := by
  rw [W3_v41]
  exact Cert.Lib.agg_read (by decide) scatter_S100000x1_S1700000x1_S1700000x1_1_0_0_1 rfl rfl rfl rfl
    gather_S100000x1_S1700000x1_S1700000x1_1_0_n_n_0_1_11 rfl rfl rfl rfl rfl rfl rfl _ _ _ _ _ (nrmK m c)
    (fun i => zeros_apply _ i) (fun e j => col_apply _ _ e j) n 0

/-- The first hidden layer at (n, j). -/
theorem h1_apply (n : Fin 100000) (j : Fin 64) :
    (W4 m ρ c (Proc.devRef .tc main_v43) : S100000x64.Idx → EReal) (ix2 n j)
      = Cert.Core.h1k (landK m c) (rowK m c) (nrmK m c) (xK m c) (W1K m c) (b1K m c) n j := by
  rw [W4_v43]
  refine (Region0.value (V3 m ρ) c n j).trans ?_
  have e41 : (V3 m ρ c main_v41 : S100000x1.Idx → EReal) (ix2 n 0) = _ := agg1_apply m ρ c n
  have e2 : (V3 m ρ c main_arg2 : S1x64.Idx → EReal) = m ((c : Thread nD τ).loc main_arg2) := W3_arg2 m ρ c
  have e42 : (V3 m ρ c main_v42 : S1x64.Idx → EReal) (ix2 0 j) = (m ((c : Thread nD τ).loc main_arg3) : S64.Idx → EReal) (ix1 j) := by
    show (W3 m ρ c (Proc.devRef .tc main_v42) : S1x64.Idx → EReal) (ix2 0 j) = _
    rw [W3_v42]
    exact shapeCast_a_1a_apply _ _ 0 j
  unfold Region0.denseAt Cert.Core.h1k
  rw [e41, e2, e42]

/-- The aggregated first hidden layer at (n, k). -/
theorem agg2_apply (n : Fin 100000) (k : Fin 64) :
    (W5 m ρ c (Proc.devRef .tc main_v55) : S100000x64.Idx → EReal) (ix2 n k)
      = Cert.Core.agg (landK m c) (rowK m c) (nrmK m c)
          (Cert.Core.h1k (landK m c) (rowK m c) (nrmK m c) (xK m c) (W1K m c) (b1K m c)) n k := by
  rw [W5_v55]
  refine (Cert.Lib.agg_read (by decide) scatter_S100000x64_S1700000x1_S1700000x64_1_0_0_1 rfl rfl rfl rfl
    gather_S100000x64_S1700000x1_S1700000x64_1_0_n_n_0_1_164 rfl rfl rfl rfl rfl rfl rfl _ _ _ _ _ (nrmK m c)
    (fun i => zeros_apply _ i) (fun e j => (spread_apply _ _ e j).trans (col_apply _ _ e 0)) n k).trans ?_
  exact congrArg (fun h => Cert.Core.agg (landK m c) (rowK m c) (nrmK m c) h n k)
    (funext fun n => funext fun j => h1_apply m ρ c n j)

/-- THE RESULT at (n, z): the network that aggregates first and projects afterwards. -/
theorem out_apply (n : Fin 100000) (z : Fin 1) :
    (W6 m ρ c (Proc.devRef .tc main_v59) : S100000x1.Idx → EReal) (ix2 n z)
      = Cert.Core.outk (landK m c) (rowK m c) (nrmK m c) (xK m c) (W1K m c) (b1K m c) (W2K m c) (b2K m c) (W3K m c) (b3K m c)
          (W4K m c) (b4K m c) n z := by
  rw [W6_v59]
  refine (Region1.value (V5 m ρ) c n z).trans ?_
  have e4 : (V5 m ρ c main_arg4 : S64x64.Idx → EReal) = m ((c : Thread nD τ).loc main_arg4) := W5_arg4 m ρ c
  have e6 : (V5 m ρ c main_arg6 : S64x64.Idx → EReal) = m ((c : Thread nD τ).loc main_arg6) := W5_arg6 m ρ c
  have e8 : (V5 m ρ c main_arg8 : S64x1.Idx → EReal) = m ((c : Thread nD τ).loc main_arg8) := W5_arg8 m ρ c
  have e56 : ∀ j : Fin 64, (V5 m ρ c main_v56 : S1x64.Idx → EReal) (ix2 0 j) = b2K m c j := fun j => by
    show (W5 m ρ c (Proc.devRef .tc main_v56) : S1x64.Idx → EReal) (ix2 0 j) = _
    rw [W5_v56]; exact shapeCast_a_1a_apply _ _ 0 j
  have e57 : ∀ j : Fin 64, (V5 m ρ c main_v57 : S1x64.Idx → EReal) (ix2 0 j) = b3K m c j := fun j => by
    show (W5 m ρ c (Proc.devRef .tc main_v57) : S1x64.Idx → EReal) (ix2 0 j) = _
    rw [W5_v57]; exact shapeCast_a_1a_apply _ _ 0 j
  have e58 : ∀ z : Fin 1, (V5 m ρ c main_v58 : S1x1.Idx → EReal) (ix2 0 z) = b4K m c z := fun z => by
    show (W5 m ρ c (Proc.devRef .tc main_v58) : S1x1.Idx → EReal) (ix2 0 z) = _
    rw [W5_v58]; exact shapeCast_a_1a_apply _ _ 0 z
  have e55 : ∀ (n : Fin 100000) (k : Fin 64), (V5 m ρ c main_v55 : S100000x64.Idx → EReal) (ix2 n k) = _ := agg2_apply m ρ c
  unfold Region1.headAt Cert.Core.outk Cert.Core.h2k
  simp only [e4, e6, e8, e56, e57, e58, e55]

end Value

end Cert.KernelIdeal.KValue

end
-- ==== Proof.RSpec.lean ====
/-
  The edge lists and the edge weights, as functions of the [2, E] edge-index input.
  Sources and destinations are the two rows of the edge index, each followed by the self loops 0 … N-1.
  A node's degree counts the edges that land in it (a scatter-add of ones), its inverse square root is taken where the
  degree is positive and is 0 elsewhere, and an edge's weight is the product of that quantity at its source and at its
  destination, both read with negative indices wrapped by N and then clamped, as the table reads are.
-/
import proofs.«419798_j51900384804999_3_alg».proof.ReferenceIdeal

noncomputable section

namespace Cert.ReferenceIdeal.Spec

open Idealize.ShloMosaic Cert.ReferenceIdeal

variable {F : FTy → Type} [FloatOps F] [Facts]
open Facts₀ Facts

/-- Row r of the edge index followed by the self loops. -/
def srcIx (ei : (⟨S2x1600000, .i32⟩ : BufTy).Contents (Elt F)) : (⟨S1700000, .i32⟩ : BufTy).Contents (Elt F) :=
  concatenate S1700000 0 [⟨S1600000, shapeCast S1600000 (extractStridedSlice S1x1600000 ![0, 0] ei slices_S2x1600000_S1x1600000_0_0) shapeCasts_S1x1600000_S1600000⟩, ⟨S100000, iotaInDim S100000 32 0⟩] concatenates_S1600000_S100000_S1700000_d0

def dstIx (ei : (⟨S2x1600000, .i32⟩ : BufTy).Contents (Elt F)) : (⟨S1700000, .i32⟩ : BufTy).Contents (Elt F) :=
  concatenate S1700000 0 [⟨S1600000, shapeCast S1600000 (extractStridedSlice S1x1600000 ![1, 0] ei slices_S2x1600000_S1x1600000_1_0) shapeCasts_S1x1600000_S1600000⟩, ⟨S100000, iotaInDim S100000 32 0⟩] concatenates_S1600000_S100000_S1700000_d0

/-- A negative index wrapped by the number of nodes. -/
def wrapIx (v : (⟨S1700000, .i32⟩ : BufTy).Contents (Elt F)) : (⟨S1700000, .i32⟩ : BufTy).Contents (Elt F) :=
  select (cmpi .slt v (broadcastInDim S1700000 ![] bcast_S_S1700000 (constantI S_ 32 0#32)))
    (addi v (broadcastInDim S1700000 ![] bcast_S_S1700000 (constantI S_ 32 100000#32))) v

/-- An index vector as the one-column table the gathers and scatters take. -/
def colI (v : (⟨S1700000, .i32⟩ : BufTy).Contents (Elt F)) : (⟨S1700000x1, .i32⟩ : BufTy).Contents (Elt F) :=
  broadcastInDim S1700000x1 ![0] bcast_S1700000_S1700000x1_0 v

/-- The in-degree of every node, self loop included. -/
def degV (ei : (⟨S2x1600000, .i32⟩ : BufTy).Contents (Elt F)) : FVec F S100000 .f32 :=
  Host.scatterAdd scatter_S100000_S1700000x1_S1700000_n_0_0_1
    (broadcastInDim S100000 ![] bcast_S_S100000 (constant S_ .f32 0x00000000#32))
    (colI (F := F) (dstIx (F := F) ei))
    (broadcastInDim S1700000 ![] bcast_S_S1700000 (constant S_ .f32 0x3F800000#32))

/-- 1/sqrt(degree) where the degree is positive, 0 elsewhere. -/
def dinvV (ei : (⟨S2x1600000, .i32⟩ : BufTy).Contents (Elt F)) : FVec F S100000 .f32 :=
  select (cmpf (F := F) .ogt (degV (F := F) ei) (broadcastInDim S100000 ![] bcast_S_S100000 (constant S_ .f32 0x00000000#32)))
    (Host.rsqrt (degV (F := F) ei))
    (broadcastInDim S100000 ![] bcast_S_S100000 (id (constant S_ .f32 0x00000000#32)))

/-- The weight of every edge. -/
def normV (ei : (⟨S2x1600000, .i32⟩ : BufTy).Contents (Elt F)) : FVec F S1700000 .f32 :=
  mulf (Host.gather gather_S100000_S1700000x1_S1700000_n_0_n_n_0_1_1 (dinvV (F := F) ei) (colI (F := F) (wrapIx (F := F) (srcIx (F := F) ei))))
    (Host.gather gather_S100000_S1700000x1_S1700000_n_0_n_n_0_1_1 (dinvV (F := F) ei) (colI (F := F) (wrapIx (F := F) (dstIx (F := F) ei))))

end Cert.ReferenceIdeal.Spec

end
-- ==== Proof.RefValue.lean ====
/-
  The reference's result, read at an index: the network that projects the features first and aggregates afterwards,
  over the edge lists and edge weights its own host operations compute from the edge index.
-/
import proofs.«419798_j51900384804999_3_alg».proof.Proof.RefRun
import proofs.«419798_j51900384804999_3_alg».proof.Proof.RSpec
import proofs.«419798_j51900384804999_3_alg».proof.Proof.Core
import proofs.«419798_j51900384804999_3_alg».proof.Proof.LibRowOps
import proofs.«419798_j51900384804999_3_alg».proof.Proof.LibDotSum
import proofs.«419798_j51900384804999_3_alg».proof.Proof.Agg
import Idealize.ShloMosaic.Lib.ValueIdx
import Idealize.ShloMosaic.Lib.ValueLayout
import Idealize.ShloMosaic.Lib.Pipeline.Value
import Idealize.ShloMosaic.Lib.KernelVsHost
import Idealize.ShloMosaic.PureOps.Ideal.Laws

set_option maxRecDepth 16384

noncomputable section

namespace Cert.ReferenceIdeal.RefValue

open Idealize.ShloMosaic Idealize.ShloMosaic.TcCoe Idealize.ShloMosaic.ValueIdx Idealize.SL.Sem
open Cert.ReferenceIdeal Cert.ReferenceIdeal.Gen

/-! ## The reference's stages as functions of tables -/

/-- One graph layer on a table of 64 features: gather the source rows, weight them, add them into the rows they land in. -/
def aggT (ei : (⟨S2x1600000, .i32⟩ : BufTy).Contents (Elt Ideal)) (T : FVec Ideal S100000x64 .f32) : FVec Ideal S100000x64 .f32 :=
  Host.scatterAdd scatter_S100000x64_S1700000x1_S1700000x64_1_0_0_1
    (broadcastInDim S100000x64 ![] bcast_S_S100000x64 (constant S_ .f32 0x00000000#32))
    (Spec.colI (F := Ideal) (Spec.dstIx (F := Ideal) ei))
    (mulf (Host.gather gather_S100000x64_S1700000x1_S1700000x64_1_0_n_n_0_1_164 T
        (Spec.colI (F := Ideal) (Spec.wrapIx (F := Ideal) (Spec.srcIx (F := Ideal) ei))))
      (broadcastInDim S1700000x64 ![0, 1] bcast_S1700000x1_S1700000x64_0_1
        (broadcastInDim S1700000x1 ![0] bcast_S1700000_S1700000x1_0 (Spec.normV (F := Ideal) ei))))

/-- y · (1 / (1 + exp (−y))), elementwise. -/
def siluV (y : FVec Ideal S100000x64 .f32) : FVec Ideal S100000x64 .f32 :=
  mulf y (Host.divf (broadcastInDim S100000x64 ![] bcast_S_S100000x64 (constant S_ .f32 0x3F800000#32))
    (addf (broadcastInDim S100000x64 ![] bcast_S_S100000x64 (constant S_ .f32 0x3F800000#32)) (Host.exp (Host.negf y))))

/-- A bias vector as a table with that row everywhere. -/
def biasV (b : FVec Ideal S64 .f32) : FVec Ideal S100000x64 .f32 :=
  broadcastInDim S100000x64 ![0, 1] bcast_S1x64_S100000x64_0_1 (broadcastInDim S1x64 ![1] bcast_S64_S1x64_1 b)

variable (m : (ℓ : Loc nD τ sig) → Buf (Elt Ideal) ℓ) (c : Dev nD)

/-- First hidden layer. -/
def H1 : FVec Ideal S100000x64 .f32 :=
  siluV (addf (aggT (m ((c.tc : Thread nD τ).loc main_arg1))
      (Host.dotGeneral (φ₁ := .f32) (φ₂ := .f32) dot_S100000x1_S1x64_S100000x64_1_0_0_1_n_n none (m ((c.tc : Thread nD τ).loc main_arg0) : FVec Ideal S100000x1 .f32) (m ((c.tc : Thread nD τ).loc main_arg2) : FVec Ideal S1x64 .f32)))
    (biasV (m ((c.tc : Thread nD τ).loc main_arg3) : FVec Ideal S64 .f32)))

/-- Second hidden layer. -/
def H2 : FVec Ideal S100000x64 .f32 :=
  siluV (addf (aggT (m ((c.tc : Thread nD τ).loc main_arg1))
      (Host.dotGeneral (φ₁ := .f32) (φ₂ := .f32) dot_S100000x64_S64x64_S100000x64_1_0_0_1_n_n none (H1 m c) (m ((c.tc : Thread nD τ).loc main_arg4) : FVec Ideal S64x64 .f32)))
    (biasV (m ((c.tc : Thread nD τ).loc main_arg5) : FVec Ideal S64 .f32)))

/-- Third hidden layer (dense). -/
def H3 : FVec Ideal S100000x64 .f32 :=
  siluV (addf (Host.dotGeneral (φ₁ := .f32) (φ₂ := .f32) dot_S100000x64_S64x64_S100000x64_1_0_0_1_n_n none (H2 m c) (m ((c.tc : Thread nD τ).loc main_arg6) : FVec Ideal S64x64 .f32))
    (biasV (m ((c.tc : Thread nD τ).loc main_arg7) : FVec Ideal S64 .f32)))

/-- The output layer. -/
def OUT : FVec Ideal S100000x1 .f32 :=
  addf (Host.dotGeneral (φ₁ := .f32) (φ₂ := .f32) dot_S100000x64_S64x1_S100000x1_1_0_0_1_n_n none (H3 m c) (m ((c.tc : Thread nD τ).loc main_arg8) : FVec Ideal S64x1 .f32))
    (broadcastInDim S100000x1 ![0, 1] bcast_S1x1_S100000x1_0_1 (broadcastInDim S1x1 ![1] bcast_S1_S1x1_1 (m ((c.tc : Thread nD τ).loc main_arg9) : FVec Ideal S1 .f32)))

/-- The reference's composed term is the composition of the stages: the same operations, named. -/
theorem res_eq : Cert.ReferenceIdeal.Value.res_main_v97 (F := Ideal) m c = OUT m c := rfl

/-! ## The stages read at an index -/

/-- The f32 pattern `0x3F800000` denotes 1. -/
theorem ofBits_one : Ideal.ofBits .f32 0x3F800000#32 = (1 : EReal) := by
  simp [Ideal.ofBits, Ideal.ieee, -EReal.coe_mul]; norm_num

theorem siluV_apply (y : FVec Ideal S100000x64 .f32) (i : S100000x64.Idx) : siluV y i = Cert.Core.silu (y i) := by
  show (y i : EReal) * Ideal.div (Ideal.ofBits .f32 0x3F800000#32) (Ideal.ofBits .f32 0x3F800000#32 + Ideal.exp (-(y i : EReal))) = _
  rw [ofBits_one]
  rfl

theorem biasV_apply (b : FVec Ideal S64 .f32) (n : Fin 100000) (j : Fin 64) : biasV b (ix2 n j) = b (ix1 j) := by
  unfold biasV
  refine (broadcastInDim_oneRow_apply bcast_S1x64_S100000x64_0_1 _ n j).trans ?_
  refine broadcastInDim_apply ![1] bcast_S64_S1x64_1 b (ix2 (0 : Fin 1) j) (ix1 j) ?_
  intro a
  fin_cases a
  show j.val = if (64 : ℕ) = 1 then 0 else j.val
  simp

/-- The output bias, a one-entry vector, as a column. -/
theorem outBias_apply (b : FVec Ideal S1 .f32) (n : Fin 100000) (z : Fin 1) :
    broadcastInDim S100000x1 ![0, 1] bcast_S1x1_S100000x1_0_1 (broadcastInDim S1x1 ![1] bcast_S1_S1x1_1 b) (ix2 n z) = b (ix1 z) := by
  refine (broadcastInDim_oneRow_apply bcast_S1x1_S100000x1_0_1 _ n z).trans ?_
  refine broadcastInDim_apply ![1] bcast_S1_S1x1_1 b (ix2 (0 : Fin 1) z) (ix1 z) ?_
  intro a
  fin_cases a
  show z.val = if (1 : ℕ) = 1 then 0 else z.val
  simp

/-- An edge vector broadcast to a column and then along 64 features reads, at (e, j), the vector at e. -/
theorem edgeCol_apply (v : FVec Ideal S1700000 .f32) (e : Fin 1700000) (j : Fin 64) :
    broadcastInDim S1700000x64 ![0, 1] bcast_S1700000x1_S1700000x64_0_1
      (broadcastInDim S1700000x1 ![0] bcast_S1700000_S1700000x1_0 v) (ix2 e j) = v (ix1 e) := by
  refine (broadcastInDim_apply ![0, 1] bcast_S1700000x1_S1700000x64_0_1 _ (ix2 e j) (ix2 e (0 : Fin 1)) ?_).trans ?_
  · intro a
    fin_cases a
    · show e.val = if (1700000 : ℕ) = 1 then 0 else e.val
      simp
    · show (0 : ℕ) = if (1 : ℕ) = 1 then 0 else _
      simp
  · refine broadcastInDim_apply ![0] bcast_S1700000_S1700000x1_0 v (ix2 e (0 : Fin 1)) (ix1 e) ?_
    intro a
    fin_cases a
    show e.val = if (1700000 : ℕ) = 1 then 0 else e.val
    simp

/-- One graph layer at (n, j): the neighbour sum of the table over the edge lists and weights. -/
theorem aggT_apply (ei : (⟨S2x1600000, .i32⟩ : BufTy).Contents (Elt Ideal)) (T : FVec Ideal S100000x64 .f32)
    (n : Fin 100000) (j : Fin 64) :
    (aggT ei T (ix2 n j) : EReal)
      = Cert.Core.agg
          (Cert.Lib.landOf (N := 100000) (Spec.colI (F := Ideal) (Spec.dstIx (F := Ideal) ei)))
          (Cert.Lib.rowOf (N := 100000) (by decide) (Spec.colI (F := Ideal) (Spec.wrapIx (F := Ideal) (Spec.srcIx (F := Ideal) ei))))
          (fun e : Fin 1700000 => (Spec.normV (F := Ideal) ei (ix1 e) : EReal))
          (fun n k => (T (ix2 n k) : EReal)) n j :=
  Cert.Lib.agg_read (by decide) scatter_S100000x64_S1700000x1_S1700000x64_1_0_0_1 rfl rfl rfl rfl
    gather_S100000x64_S1700000x1_S1700000x64_1_0_n_n_0_1_164 rfl rfl rfl rfl rfl rfl rfl
    _ T _ _ _ _ (fun _ => Ideal.ofBits_zero_f32) (fun e j => edgeCol_apply (Spec.normV (F := Ideal) ei) e j) n j

/-! ## The chain of layers -/

theorem addf_apply {s : Shape} (x y : FVec Ideal s .f32) (i : s.Idx) : (addf x y i : EReal) = (x i : EReal) + (y i : EReal) := rfl

theorem silu_add_congr {a a' b : EReal} (h : a = a') : Cert.Core.silu (a + b) = Cert.Core.silu (a' + b) := by rw [h]

theorem add_congr_left {a a' b : EReal} (h : a = a') : a + b = a' + b := by rw [h]

/-- The neighbour sum depends on the table only through its entries. -/
theorem agg_congr {E N C : Type} [Fintype E] [DecidableEq N] (land : E → Option N) (row : E → N) (nrm : E → EReal)
    {h h' : N → C → EReal} (hh : ∀ n k, h n k = h' n k) (n : N) (j : C) :
    Cert.Core.agg land row nrm h n j = Cert.Core.agg land row nrm h' n j := by
  rw [show h = h' from funext fun n => funext fun k => hh n k]

/-- The edge lists, the edge weights and the parameter tables, as functions of plain indices. -/
abbrev landM : Fin 1700000 → Option (Fin 100000) :=
  Cert.Lib.landOf (N := 100000) (Spec.colI (F := Ideal) (Spec.dstIx (F := Ideal) (m ((c.tc : Thread nD τ).loc main_arg1))))
abbrev rowM : Fin 1700000 → Fin 100000 :=
  Cert.Lib.rowOf (N := 100000) (by decide) (Spec.colI (F := Ideal) (Spec.wrapIx (F := Ideal) (Spec.srcIx (F := Ideal) (m ((c.tc : Thread nD τ).loc main_arg1)))))
abbrev nrmM : Fin 1700000 → EReal := fun e => (Spec.normV (F := Ideal) (m ((c.tc : Thread nD τ).loc main_arg1)) (ix1 e) : EReal)
abbrev xM : Fin 100000 → Fin 1 → EReal := fun n k => ((m ((c.tc : Thread nD τ).loc main_arg0)) : S100000x1.Idx → EReal) (ix2 n k)
abbrev W1M : Fin 1 → Fin 64 → EReal := fun k j => ((m ((c.tc : Thread nD τ).loc main_arg2)) : S1x64.Idx → EReal) (ix2 k j)
abbrev b1M : Fin 64 → EReal := fun j => ((m ((c.tc : Thread nD τ).loc main_arg3)) : S64.Idx → EReal) (ix1 j)
abbrev W2M : Fin 64 → Fin 64 → EReal := fun k j => ((m ((c.tc : Thread nD τ).loc main_arg4)) : S64x64.Idx → EReal) (ix2 k j)
abbrev b2M : Fin 64 → EReal := fun j => ((m ((c.tc : Thread nD τ).loc main_arg5)) : S64.Idx → EReal) (ix1 j)
abbrev W3M : Fin 64 → Fin 64 → EReal := fun k j => ((m ((c.tc : Thread nD τ).loc main_arg6)) : S64x64.Idx → EReal) (ix2 k j)
abbrev b3M : Fin 64 → EReal := fun j => ((m ((c.tc : Thread nD τ).loc main_arg7)) : S64.Idx → EReal) (ix1 j)
abbrev W4M : Fin 64 → Fin 1 → EReal := fun k z => ((m ((c.tc : Thread nD τ).loc main_arg8)) : S64x1.Idx → EReal) (ix2 k z)
abbrev b4M : Fin 1 → EReal := fun z => ((m ((c.tc : Thread nD τ).loc main_arg9)) : S1.Idx → EReal) (ix1 z)

/-- The first hidden layer at (n, j): project, aggregate, add the bias, apply x · logistic x. -/
theorem H1_apply (n : Fin 100000) (j : Fin 64) :
    (H1 m c (ix2 n j) : EReal)
      = Cert.Core.h1r (landM m c) (rowM m c) (nrmM m c) (xM m c) (W1M m c) (b1M m c) n j := by
  rw [H1, Cert.Core.h1r]
  rw [siluV_apply, addf_apply, aggT_apply, biasV_apply]
  refine silu_add_congr ?_
  refine agg_congr _ _ _ (fun n' k => ?_) n j
  exact Cert.Lib.dotGeneral_rc_apply dot_S100000x1_S1x64_S100000x64_1_0_0_1_n_n rfl rfl rfl rfl rfl rfl none _ _ n' k

/-- The second hidden layer at (n, j). -/
theorem H2_apply (n : Fin 100000) (j : Fin 64) :
    (H2 m c (ix2 n j) : EReal)
      = Cert.Core.h2r (landM m c) (rowM m c) (nrmM m c) (xM m c) (W1M m c) (b1M m c) (W2M m c) (b2M m c) n j := by
  rw [H2, Cert.Core.h2r]
  rw [siluV_apply, addf_apply, aggT_apply, biasV_apply]
  refine silu_add_congr ?_
  refine agg_congr _ _ _ (fun n' k => ?_) n j
  rw [Cert.Lib.dotGeneral_rc_apply dot_S100000x64_S64x64_S100000x64_1_0_0_1_n_n rfl rfl rfl rfl rfl rfl none _ _ n' k]
  exact Finset.sum_congr rfl fun l _ => by rw [H1_apply]

/-- The third hidden layer (dense) at (n, k). -/
theorem H3_apply (n : Fin 100000) (k : Fin 64) :
    (H3 m c (ix2 n k) : EReal)
      = Cert.Core.silu ((∑ l : Fin 64,
          Cert.Core.h2r (landM m c) (rowM m c) (nrmM m c) (xM m c) (W1M m c) (b1M m c) (W2M m c) (b2M m c) n l * W3M m c l k)
          + b3M m c k) := by
  rw [H3]
  rw [siluV_apply, addf_apply, biasV_apply,
    Cert.Lib.dotGeneral_rc_apply dot_S100000x64_S64x64_S100000x64_1_0_0_1_n_n rfl rfl rfl rfl rfl rfl none _ _ n k]
  refine silu_add_congr ?_
  exact Finset.sum_congr rfl fun l _ => by rw [H2_apply]

/-- The reference's result at (n, z). -/
theorem res_apply (n : Fin 100000) (z : Fin 1) :
    (Cert.ReferenceIdeal.Value.res_main_v97 (F := Ideal) m c : S100000x1.Idx → EReal) (ix2 n z)
      = Cert.Core.outr
          (Cert.Lib.landOf (N := 100000) (Spec.colI (F := Ideal) (Spec.dstIx (F := Ideal) (m ((c.tc : Thread nD τ).loc main_arg1)))))
          (Cert.Lib.rowOf (N := 100000) (by decide) (Spec.colI (F := Ideal) (Spec.wrapIx (F := Ideal) (Spec.srcIx (F := Ideal) (m ((c.tc : Thread nD τ).loc main_arg1))))))
          (fun e : Fin 1700000 => (Spec.normV (F := Ideal) (m ((c.tc : Thread nD τ).loc main_arg1)) (ix1 e) : EReal))
          (fun n k => (m ((c.tc : Thread nD τ).loc main_arg0) : S100000x1.Idx → EReal) (ix2 n k))
          (fun k j => (m ((c.tc : Thread nD τ).loc main_arg2) : S1x64.Idx → EReal) (ix2 k j))
          (fun j => (m ((c.tc : Thread nD τ).loc main_arg3) : S64.Idx → EReal) (ix1 j))
          (fun k j => (m ((c.tc : Thread nD τ).loc main_arg4) : S64x64.Idx → EReal) (ix2 k j))
          (fun j => (m ((c.tc : Thread nD τ).loc main_arg5) : S64.Idx → EReal) (ix1 j))
          (fun k j => (m ((c.tc : Thread nD τ).loc main_arg6) : S64x64.Idx → EReal) (ix2 k j))
          (fun j => (m ((c.tc : Thread nD τ).loc main_arg7) : S64.Idx → EReal) (ix1 j))
          (fun k z => (m ((c.tc : Thread nD τ).loc main_arg8) : S64x1.Idx → EReal) (ix2 k z))
          (fun z => (m ((c.tc : Thread nD τ).loc main_arg9) : S1.Idx → EReal) (ix1 z))
          n z := by
  refine (congrFun (res_eq m c) (ix2 n z)).trans ?_
  show (OUT m c (ix2 n z) : EReal)
      = Cert.Core.outr (landM m c) (rowM m c) (nrmM m c) (xM m c) (W1M m c) (b1M m c) (W2M m c) (b2M m c)
          (W3M m c) (b3M m c) (W4M m c) (b4M m c) n z
  rw [OUT, Cert.Core.outr, Cert.Core.tail]
  rw [addf_apply, outBias_apply,
    Cert.Lib.dotGeneral_rc_apply dot_S100000x64_S64x1_S100000x1_1_0_0_1_n_n rfl rfl rfl rfl rfl rfl none _ _ n z]
  refine add_congr_left ?_
  exact Finset.sum_congr rfl fun k _ => by rw [H3_apply]

end Cert.ReferenceIdeal.RefValue

end
-- ==== Proof.Finite.lean ====
/-
  The precondition `finite_inputs` read back: when the printed predicate evaluates to 1 at the ideal instance,
  every entry of the float inputs it tests is a real number (neither infinity). Here: inputs 0, 2, 3 and 4.

  The predicate is, for each float input x, the conjunction over all entries of `|x| < +∞`, and then the
  conjunction of these nine results. An `and` that is 1 has both operands 1; a reduction by `and` over all axes
  that is 1 has every element 1; and `max x (-x) < ⊤` in the extended reals excludes `⊤` and `⊥`.
-/
import proofs.«419798_j51900384804999_3_alg».proof.Pre_finite_inputs
import Idealize.ShloMosaic.Lib.ReduceAll
import Idealize.ShloMosaic.Lib.ValueIdx
import Idealize.ShloMosaic.PureOps.Ideal
import Idealize.ShloMosaic.PureOps.Ideal.Laws

noncomputable section

namespace Cert.Finite

open Cert.Pre_finite_inputs Idealize.ShloMosaic

/-- The rank-0 shape has one index. -/
instance : Subsingleton S_.Idx := ⟨fun a b => funext fun d => d.elim0⟩

/-- The f32 pattern `0x7F800000` denotes `+∞`. -/
theorem inf_pattern : Ideal.ofBits .f32 0x7F800000#32 = (⊤ : EReal) := by
  simp [Ideal.ofBits, Ideal.ieee]

/-- One value: `|x| < +∞` says `x` is a real. -/
theorem real_of_abs_lt_inf (x : Ideal .f32)
    (h : FloatOps.cmpf .olt (FloatOps.hostAbsf x) (FloatOps.ofBits (F := Ideal) .f32 0x7F800000#32) = 1#1) :
    ∃ r : ℝ, x = (r : EReal) := by
  have h' : Ideal.cmp .olt (max (x : EReal) (-(x : EReal))) (Ideal.ofBits .f32 0x7F800000#32) = 1#1 := h
  rw [inf_pattern] at h'
  unfold Ideal.cmp at h'
  induction x using EReal.rec with
  | bot => simp at h'
  | coe r => exact ⟨r, rfl⟩
  | top => simp at h'

/-- One input: the reduction by `and`, over all axes, of `|x| < +∞` being 1 says every entry of `x` is a real. -/
theorem reals_of_all {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi
          (cmpf .olt (Host.absf x) (broadcastInDim s ![] hb (constant S_ .f32 0x7F800000#32)))
          (constantI S_ 1 1#1) hr hu ValueIdx.ix0 = 1#1) :
    ∀ i, ∃ r : ℝ, x i = (r : EReal) := fun i =>
  real_of_abs_lt_inf (x i) (Host.reduce_andi_all _ _ hr hu _ e i)

theorem reals_of_pre [Facts] (a0 : FVec Ideal S100000x1 .f32) (a1 : IVec S2x1600000 32) (a2 : FVec Ideal S1x64 .f32)
    (a3 : FVec Ideal S64 .f32) (a4 : FVec Ideal S64x64 .f32) (a5 : FVec Ideal S64 .f32) (a6 : FVec Ideal S64x64 .f32)
    (a7 : FVec Ideal S64 .f32) (a8 : FVec Ideal S64x1 .f32) (a9 : FVec Ideal S1 .f32)
    (h : fn (F := Ideal) a0 a1 a2 a3 a4 a5 a6 a7 a8 a9 = fun _ => 1#1) :
    (∀ i, ∃ r : ℝ, a0 i = (r : EReal)) ∧ (∀ i, ∃ r : ℝ, a2 i = (r : EReal)) ∧
      (∀ i, ∃ r : ℝ, a3 i = (r : EReal)) ∧ (∀ i, ∃ r : ℝ, a4 i = (r : EReal)) := by
  have h0 := congrFun h ValueIdx.ix0
  dsimp only [fn, fn_part1, fn_part2, andi] at h0
  simp only [IntOp.andi_eq_one] at h0
  obtain ⟨⟨⟨⟨⟨⟨⟨⟨e0, e2⟩, e3⟩, e4⟩, -⟩, -⟩, -⟩, -⟩, -⟩ := h0
  exact ⟨reals_of_all a0 _ _ _ e0, reals_of_all a2 _ _ _ e2, reals_of_all a3 _ _ _ e3, reals_of_all a4 _ _ _ e4⟩

end Cert.Finite

end
-- ==== Proof.Norm.lean ====
/-
  Every edge weight is a real number.
  An entry of the inverse-square-root table is real whatever the node's degree d is: where d is positive the entry is
  1/√d for a real d and 0 for d = ⊤, and elsewhere the table holds 0; an edge's weight is the product of two entries of
  that table.
-/
import proofs.«419798_j51900384804999_3_alg».proof.Proof.KSpec
import Idealize.ShloMosaic.PureOps.Ideal
import Idealize.ShloMosaic.PureOps.Ideal.Laws
import proofs.«419798_j51900384804999_3_alg».proof.Proof.Core

noncomputable section

namespace Cert.KernelIdeal.Spec

open Idealize.ShloMosaic Cert.KernelIdeal

variable [Facts]

/-- The inverse square root where the argument is positive, and 0 elsewhere, is a real number whatever the argument:
    at ⊤ the inverse square root is 0, at a positive real r it is 1/√r, and everywhere else the 0 is selected. -/
theorem select_rsqrt_real (x z z' : EReal) (hz : z = 0) (hz' : z' = 0) :
    ∃ r : ℝ, Scalar.select (Ideal.cmp .ogt x z) (Ideal.rsqrt x) z' = (r : EReal) := by
  subst hz hz'
  unfold Scalar.select
  by_cases hc : Ideal.cmp .ogt x 0 = 1
  · rw [if_pos hc]
    have hpos : (0 : EReal) < x := by
      by_contra h0
      simp [Ideal.cmp, h0] at hc
    induction x using EReal.rec with
    | bot => exact absurd hpos (by simp)
    | top => exact ⟨0, by rw [Ideal.rsqrt_top, EReal.coe_zero]⟩
    | coe r =>
      have hr : 0 < r := EReal.coe_pos.mp hpos
      exact ⟨(Real.sqrt r)⁻¹, by rw [Ideal.rsqrt_coe, if_neg (not_lt.mpr hr.le), if_neg hr.ne']⟩
  · rw [if_neg hc]
    exact ⟨0, EReal.coe_zero.symm⟩

open Facts₀ Facts in
/-- The constant-zero table reads the extended real 0 at every node. -/
theorem zeros_apply (j : S100000.Idx) :
    broadcastInDim S100000 ![] bcast_S_S100000 (constant (F := Ideal) S_ .f32 0x00000000#32) j = (0 : EReal) :=
  Ideal.ofBits_zero_f32

open Facts₀ Facts in
/-- The same table spelled through an identity reads 0 as well. -/
theorem zeros_id_apply (j : S100000.Idx) :
    broadcastInDim S100000 ![] bcast_S_S100000 (id (constant (F := Ideal) S_ .f32 0x00000000#32)) j = (0 : EReal) :=
  Ideal.ofBits_zero_f32

open Facts₀ Facts in
/-- From ANY table d of degrees, the table "1/√d where d is positive, 0 elsewhere" has real entries only. -/
theorem dinv_real_of (d : FVec Ideal S100000 .f32) (i : S100000.Idx) :
    ∃ r : ℝ, (select (cmpf (F := Ideal) .ogt d (broadcastInDim S100000 ![] bcast_S_S100000 (constant (F := Ideal) S_ .f32 0x00000000#32)))
      (Host.rsqrt d)
      (broadcastInDim S100000 ![] bcast_S_S100000 (id (constant (F := Ideal) S_ .f32 0x00000000#32))) i : EReal) = (r : EReal) :=
  select_rsqrt_real (d i) _ _ (zeros_apply i) (zeros_id_apply i)

/-- Every entry of the inverse-square-root table is real. -/
theorem dinvV_real (ei : (⟨S2x1600000, .i32⟩ : BufTy).Contents (Elt Ideal)) (i : S100000.Idx) :
    ∃ r : ℝ, (dinvV (F := Ideal) ei i : EReal) = (r : EReal) :=
  dinv_real_of (degV (F := Ideal) ei) i

/-- The product of two entries of a table of reals, read at any two index lists, is real. -/
theorem gather_mul_real (t : FVec Ideal S100000 .f32) (ht : ∀ i, ∃ r : ℝ, (t i : EReal) = (r : EReal))
    (a b : (⟨S1700000x1, .i32⟩ : BufTy).Contents (Elt Ideal)) (e : S1700000.Idx) :
    ∃ r : ℝ, (mulf (Host.gather gather_S100000_S1700000x1_S1700000_n_0_n_n_0_1_1 t a)
      (Host.gather gather_S100000_S1700000x1_S1700000_n_0_n_n_0_1_1 t b) e : EReal) = (r : EReal) :=
  Cert.Core.real_mul (ht _) (ht _)

/-- Every edge weight is real. -/
theorem normV_real (ei : (⟨S2x1600000, .i32⟩ : BufTy).Contents (Elt Ideal)) (e : S1700000.Idx) :
    ∃ r : ℝ, (normV (F := Ideal) ei e : EReal) = (r : EReal) := by
  exact gather_mul_real (dinvV (F := Ideal) ei) (dinvV_real ei) _ _ e

end Cert.KernelIdeal.Spec

end
-- ==== Proof.lean ====
/-
  A two-layer graph convolution followed by a two-layer head, on 100000 nodes and 1700000 edges (self loops included).
  A graph layer is  silu (Â (h W) + b)  with Â the degree-normalised adjacency: per edge, the projected source row times the
  edge weight is summed into the destination row. The kernel computes  silu ((Â h) W + b)  instead: it aggregates the
  unprojected rows on the host and multiplies by W inside its two dense regions, the second of which also runs the head.
  Since  Â (h W) = (Â h) W  whenever the entries are real, and the precondition makes the input features, W1, b1 and W2 real
  (the edge weights are products of inverse square roots of positive counts, hence real, and silu of a real is real),
  the two programs end with the same array. Out-of-range edge indices are read clamped and scattered dropped by both programs
  in the same way, so no condition on the edge index is needed.

  The frames of the two kernel programs are the generated ones; the reference's frame is its run with the result dropped.
  The kernel's value is read off its run region by region (KValue), the reference's off its composed term (RefValue), both as
  the abstract networks of Core over the same edge rows and weights, which Core.out_eq identifies.
-/
import proofs.«419798_j51900384804999_3_alg».proof.Defs
import proofs.«419798_j51900384804999_3_alg».proof.Proof.Gen.Kernel
import proofs.«419798_j51900384804999_3_alg».proof.Proof.Gen.Kernel.Frame
import proofs.«419798_j51900384804999_3_alg».proof.Proof.Gen.KernelIdeal
import proofs.«419798_j51900384804999_3_alg».proof.Proof.Gen.KernelIdeal.Frame
import proofs.«419798_j51900384804999_3_alg».proof.Proof.Gen.ReferenceIdeal
import proofs.«419798_j51900384804999_3_alg».proof.Proof.Gen.Pre_finite_inputs
import proofs.«419798_j51900384804999_3_alg».proof.Proof.KRun
import proofs.«419798_j51900384804999_3_alg».proof.Proof.KValue
import proofs.«419798_j51900384804999_3_alg».proof.Proof.RefRun
import proofs.«419798_j51900384804999_3_alg».proof.Proof.RefValue
import proofs.«419798_j51900384804999_3_alg».proof.Proof.Core
import proofs.«419798_j51900384804999_3_alg».proof.Proof.Finite
import proofs.«419798_j51900384804999_3_alg».proof.Proof.Norm
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the same result array: index by index, the network that aggregates first and the network
    that projects first, over the same edges and weights, on real entries. -/
theorem algebraic : Cert.algebraic_KernelIdeal_ReferenceIdeal := by
  intro m ρ m' ρ' hpre hagree
  refine ⟨fun c => Cert.KernelIdeal.Gen.W6 m ρ c (Proc.devRef .tc Cert.KernelIdeal.main_v59), Cert.KernelIdeal.KRun.run_main m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9⟩ := hagree c
  obtain ⟨hx, hW1, hb1, hW2⟩ := Cert.Finite.reals_of_pre _ _ _ _ _ _ _ _ _ _ (hpre c)
  funext i
  obtain ⟨n, z, rfl⟩ : ∃ (n : Fin 100000) (z : Fin 1), i = ix2 n z := ⟨i 0, i 1, eq_ix2 i⟩
  refine (Cert.ReferenceIdeal.RefValue.res_apply m' c n z).trans ?_
  refine Eq.trans ?_ (Cert.KernelIdeal.KValue.out_apply m ρ c n z).symm
  rw [h0, h1, h2, h3, h4, h5, h6, h7, h8, h9]
  exact (congrFun (congrFun (Cert.Core.out_eq (Cert.KernelIdeal.KValue.landK m c) (Cert.KernelIdeal.KValue.rowK m c)
    (Cert.KernelIdeal.KValue.nrmK m c) (Cert.KernelIdeal.KValue.xK m c) (Cert.KernelIdeal.KValue.W1K m c)
    (Cert.KernelIdeal.KValue.b1K m c) (Cert.KernelIdeal.KValue.W2K m c) (Cert.KernelIdeal.KValue.b2K m c)
    (Cert.KernelIdeal.KValue.W3K m c) (Cert.KernelIdeal.KValue.b3K m c) (Cert.KernelIdeal.KValue.W4K m c)
    (Cert.KernelIdeal.KValue.b4K m c)
    (fun n k => hx (ix2 n k)) (fun k j => hW1 (ix2 k j)) (fun j => hb1 (ix1 j)) (fun k j => hW2 (ix2 k j))
    (fun e => Cert.KernelIdeal.Spec.normV_real _ (ix1 e))) n) z).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
